-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)) (v2 : (c : Dev Cert.KernelIdeal.nD) → Buf (Elt Ideal) ((c.tc : Thread Cert.KernelIdeal.nD Cert.KernelIdeal.τ).loc Cert.KernelIdeal.main_v18_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_v18_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part5 {F : FTy → Type} [FloatOps F] (main_arg18 : FVec F S2048 .f32) (main_v83 : IVec S_ 1) (main_v84 : FVec F S2048x2048 .f32) (main_cst_32 : FVec F S_ .f32) : IVec S_ 1 :=
  let main_v85 : FVec F S2048x2048 .f32 := broadcastInDim S2048x2048 ![] bcast_S_S2048x2048 main_cst_32
  let main_v86 : IVec S2048x2048 1 := cmpf .olt main_v84 main_v85
  let main_c_33 : IVec S_ 1 := constantI S_ 1 1#1
  let main_v87 : IVec S_ 1 := (fun x v => Host.reduce IntOp.andi x v reducesTo_S2048x2048_S_d0_1 h_S_) main_v86 main_c_33
  let main_v88 : IVec S_ 1 := andi main_v83 main_v87
  let main_v89 : FVec F S2048 .f32 := Host.absf main_arg18
  let main_cst_34 : FVec F S_ .f32 := constant S_ .f32 0x7F800000#32
  let main_v90 : FVec F S2048 .f32 := broadcastInDim S2048 ![] bcast_S_S2048 main_cst_34
  let main_v91 : IVec S2048 1 := cmpf .olt main_v89 main_v90
  let main_c_35 : IVec S_ 1 := constantI S_ 1 1#1
  let main_v92 : IVec S_ 1 := (fun x v => Host.reduce IntOp.andi x v reducesTo_S2048_S_d0 h_S_) main_v91 main_c_35
  let main_v93 : IVec S_ 1 := andi main_v88 main_v92
  main_v93

def fn_part4 {F : FTy → Type} [FloatOps F] (main_arg14 : FVec F S2048 .f32) (main_arg15 : FVec F S2048x2048 .f32) (main_arg16 : FVec F S2048 .f32) (main_arg17 : FVec F S2048x2048 .f32) (main_arg18 : FVec F S2048 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  let main_v74 : FVec F S2048x2048 .f32 := Host.absf main_arg15
  let main_cst_28 : FVec F S_ .f32 := constant S_ .f32 0x7F800000#32
  let main_v75 : FVec F S2048x2048 .f32 := broadcastInDim S2048x2048 ![] bcast_S_S2048x2048 main_cst_28
  let main_v76 : IVec S2048x2048 1 := cmpf .olt main_v74 main_v75
  let main_c_29 : IVec S_ 1 := constantI S_ 1 1#1
  let main_v77 : IVec S_ 1 := (fun x v => Host.reduce IntOp.andi x v reducesTo_S2048x2048_S_d0_1 h_S_) main_v76 main_c_29
  let main_v78 : IVec S_ 1 := andi main_v73 main_v77
  let main_v79 : FVec F S2048 .f32 := Host.absf main_arg16
  let main_cst_30 : FVec F S_ .f32 := constant S_ .f32 0x7F800000#32
  let main_v80 : FVec F S2048 .f32 := broadcastInDim S2048 ![] bcast_S_S2048 main_cst_30
  let main_v81 : IVec S2048 1 := cmpf .olt main_v79 main_v80
  let main_c_31 : IVec S_ 1 := constantI S_ 1 1#1
  let main_v82 : IVec S_ 1 := (fun x v => Host.reduce IntOp.andi x v reducesTo_S2048_S_d0 h_S_) main_v81 main_c_31
  let main_v83 : IVec S_ 1 := andi main_v78 main_v82
  let main_v84 : FVec F S2048x2048 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048x2048 .f32 := Host.absf main_arg11
  let main_cst_20 : FVec F S_ .f32 := constant S_ .f32 0x7F800000#32
  let main_v55 : FVec F S2048x2048 .f32 := broadcastInDim S2048x2048 ![] bcast_S_S2048x2048 main_cst_20
  let main_v56 : IVec S2048x2048 1 := cmpf .olt main_v54 main_v55
  let main_c_21 : IVec S_ 1 := constantI S_ 1 1#1
  let main_v57 : IVec S_ 1 := (fun x v => Host.reduce IntOp.andi x v reducesTo_S2048x2048_S_d0_1 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048x2048 .f32 := Host.absf main_arg13
  let main_cst_24 : FVec F S_ .f32 := constant S_ .f32 0x7F800000#32
  let main_v65 : FVec F S2048x2048 .f32 := broadcastInDim S2048x2048 ![] bcast_S_S2048x2048 main_cst_24
  let main_v66 : IVec S2048x2048 1 := cmpf .olt main_v64 main_v65
  let main_c_25 : IVec S_ 1 := constantI S_ 1 1#1
  let main_v67 : IVec S_ 1 := (fun x v => Host.reduce IntOp.andi x v reducesTo_S2048x2048_S_d0_1 h_S_) main_v66 main_c_25
  fn_part4 (F := F) main_arg14 main_arg15 main_arg16 main_arg17 main_arg18 main_v63 main_v67

def fn_part2 {F : FTy → Type} [FloatOps F] (main_arg7 : FVec F S2048x2048 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_arg13 main_arg14 main_arg15 main_arg16 main_arg17 main_arg18 main_v48 main_v49 main_v50

def fn_part1 {F : FTy → Type} [FloatOps F] (main_arg4 : FVec F S2048 .f32) (main_arg5 : FVec F S2048x2048 .f32) (main_arg6 : FVec F S2048 .f32) (main_arg7 : FVec F S2048x2048 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S8192x2048 .f32) (main_arg1 : FVec F S8192x2048 .f32) (main_arg2 : FVec F S8192x2048 .f32) (main_arg3 : FVec F S2048x2048 .f32) (main_arg4 : FVec F S2048 .f32) (main_arg5 : FVec F S2048x2048 .f32) (main_arg6 : FVec F S2048 .f32) (main_arg7 : FVec F S2048x2048 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S256x2048 : Shape := ⟨2, ![256, 2048]⟩
abbrev S1x256 : Shape := ⟨2, ![1, 256]⟩
abbrev S512x256 : Shape := ⟨2, ![512, 256]⟩

abbrev nBuf : Space → Nat
  | .hbm => 40
  | .vmem => 36
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S2048x2048, .f32⟩
  | .hbm, ⟨12, _⟩ => ⟨S2048, .f32⟩
  | .hbm, ⟨13, _⟩ => ⟨S2048x2048, .f32⟩
  | .hbm, ⟨14, _⟩ => ⟨S2048, .f32⟩
  | .hbm, ⟨15, _⟩ => ⟨S2048x2048, .f32⟩
  | .hbm, ⟨16, _⟩ => ⟨S2048, .f32⟩
  | .hbm, ⟨17, _⟩ => ⟨S2048x2048, .f32⟩
  | .hbm, ⟨18, _⟩ => ⟨S2048, .f32⟩
  | .hbm, ⟨19, _⟩ => ⟨S8192x2048, .bf16⟩
  | .hbm, ⟨20, _⟩ => ⟨S8192x2048, .bf16⟩
  | .hbm, ⟨21, _⟩ => ⟨S2048x2048, .bf16⟩
  | .hbm, ⟨22, _⟩ => ⟨S2048x2048, .bf16⟩
  | .hbm, ⟨23, _⟩ => ⟨S2048x2048, .bf16⟩
  | .hbm, ⟨24, _⟩ => ⟨S2048x2048, .bf16⟩
  | .hbm, ⟨25, _⟩ => ⟨S2048x2048, .bf16⟩
  | .hbm, ⟨26, _⟩ => ⟨S2048x2048, .bf16⟩
  | .hbm, ⟨27, _⟩ => ⟨S2048x2048, .bf16⟩
  | .hbm, ⟨28, _⟩ => ⟨S2048x2048, .bf16⟩
  | .hbm, ⟨29, _⟩ => ⟨S2048, .f32⟩
  | .hbm, ⟨30, _⟩ => ⟨S1x2048, .f32⟩
  | .hbm, ⟨31, _⟩ => ⟨S2048, .f32⟩
  | .hbm, ⟨32, _⟩ => ⟨S1x2048, .f32⟩
  | .hbm, ⟨33, _⟩ => ⟨S2048, .f32⟩
  | .hbm, ⟨34, _⟩ => ⟨S1x2048, .f32⟩
  | .hbm, ⟨35, _⟩ => ⟨S2048, .f32⟩
  | .hbm, ⟨36, _⟩ => ⟨S1x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S512x256, .f32⟩
  | .local _ .vmem, ⟨29, _⟩ => ⟨S512x256, .f32⟩
  | .local _ .vmem, ⟨30, _⟩ => ⟨S512x256, .f32⟩
  | .local _ .vmem, ⟨31, _⟩ => ⟨S512x256, .f32⟩
  | .local _ .vmem, ⟨32, _⟩ => ⟨S512x256, .f32⟩
  | .local _ .vmem, ⟨33, _⟩ => ⟨S512x256, .f32⟩
  | .local _ .vmem, ⟨34, _⟩ => ⟨S512x256, .f32⟩
  | .local _ .vmem, ⟨35, _⟩ => ⟨S512x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18_0 : Ref sig .tc := ⟨.hbm, 37, rfl⟩
abbrev main_v18_1 : Ref sig .tc := ⟨.hbm, 38, rfl⟩
abbrev main_v18_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S512x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

class Facts₀ : Prop where
  bitsLt_bf16_f32 : FTy.bits .bf16 < FTy.bits .f32
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  dot_S512x2048_S256x2048_S512x256_1_1_0_0_n_n_wf : DotDims.WF S512x2048 S256x2048 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .bf16 = 32 ∨ (Rect.block (s := S8192x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .bf16 = 32 ∨ (Rect.block (s := S8192x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S2048x2048.size a
  hwx0_2 : ∀ i : grid0.Coords, EltTy.bits .bf16 = 32 ∨ (Rect.block (s := S2048x2048) S256x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S2048x2048.size a
  hwx0_3 : ∀ i : grid0.Coords, EltTy.bits .bf16 = 32 ∨ (Rect.block (s := S2048x2048) S256x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S2048x2048.size a
  hwx0_4 : ∀ i : grid0.Coords, EltTy.bits .bf16 = 32 ∨ (Rect.block (s := S2048x2048) S256x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S2048x2048.size a
  hwx0_5 : ∀ i : grid0.Coords, EltTy.bits .bf16 = 32 ∨ (Rect.block (s := S2048x2048) S256x2048.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S2048x2048.size a
  hwx0_6 : ∀ i : grid0.Coords, EltTy.bits .bf16 = 32 ∨ (Rect.block (s := S2048x2048) S256x2048.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x2048.size a ≤ S2048x2048.size a
  hwx0_7 : ∀ i : grid0.Coords, EltTy.bits .bf16 = 32 ∨ (Rect.block (s := S2048x2048) S256x2048.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x2048.size a ≤ S2048x2048.size a
  hwx0_8 : ∀ i : grid0.Coords, EltTy.bits .bf16 = 32 ∨ (Rect.block (s := S2048x2048) S256x2048.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x2048.size a ≤ S2048x2048.size a
  hwx0_9 : ∀ i : grid0.Coords, EltTy.bits .bf16 = 32 ∨ (Rect.block (s := S2048x2048) S256x2048.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x2048.size a
  hwx0_10 : ∀ i : grid0.Coords, EltTy.bits .f32 = 32 ∨ (Rect.block (s := S1x2048) S1x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x2048.size a
  hwx0_11 : ∀ i : grid0.Coords, EltTy.bits .f32 = 32 ∨ (Rect.block (s := S1x2048) S1x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x2048.size a
  hwx0_12 : ∀ i : grid0.Coords, EltTy.bits .f32 = 32 ∨ (Rect.block (s := S1x2048) S1x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x2048.size a
  hwx0_13 : ∀ i : grid0.Coords, EltTy.bits .f32 = 32 ∨ (Rect.block (s := S1x2048) S1x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S512x256.size a ≤ S8192x2048.size a
  hwx0_14 : ∀ i : grid0.Coords, EltTy.bits .f32 = 32 ∨ (Rect.block (s := S8192x2048) S512x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x256.size a ≤ S8192x2048.size a
  hwx0_15 : ∀ i : grid0.Coords, EltTy.bits .f32 = 32 ∨ (Rect.block (s := S8192x2048) S512x256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S512x256.size a ≤ S8192x2048.size a
  hwx0_16 : ∀ i : grid0.Coords, EltTy.bits .f32 = 32 ∨ (Rect.block (s := S8192x2048) S512x256.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S512x256.size a ≤ S8192x2048.size a
  hwx0_17 : ∀ i : grid0.Coords, EltTy.bits .f32 = 32 ∨ (Rect.block (s := S8192x2048) S512x256.size (cc0_transform_17 i) (hinb0_17 i)).WholeWords (EltTy.packing .f32)

variable [Facts₀]

def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S256x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S256x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S256x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7) S256x2048.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8) S256x2048.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v9) S256x2048.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v11) S1x256.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v13) S1x256.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v15) S1x256.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v17) S1x256.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_arg2) S512x256.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v18_0) S512x256.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v18_1) S512x256.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v18_2) S512x256.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S8192 : Shape := ⟨1, ![8192]⟩
abbrev S2048x8192 : Shape := ⟨2, ![2048, 8192]⟩
abbrev S8192x8192 : Shape := ⟨2, ![8192, 8192]⟩
abbrev S1x8192 : Shape := ⟨2, ![1, 8192]⟩
abbrev S_ : Shape := ⟨0, ![]⟩

abbrev nBuf : Space → Nat
  | .hbm => 67
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S2048x2048, .f32⟩
  | .hbm, ⟨12, _⟩ => ⟨S2048, .f32⟩
  | .hbm, ⟨13, _⟩ => ⟨S2048x2048, .f32⟩
  | .hbm, ⟨14, _⟩ => ⟨S2048, .f32⟩
  | .hbm, ⟨15, _⟩ => ⟨S2048x2048, .f32⟩
  | .hbm, ⟨16, _⟩ => ⟨S2048, .f32⟩
  | .hbm, ⟨17, _⟩ => ⟨S2048x2048, .f32⟩
  | .hbm, ⟨18, _⟩ => ⟨S2048, .f32⟩
  | .hbm, ⟨19, _⟩ => ⟨S8192x2048, .f32⟩
  | .hbm, ⟨20, _⟩ => ⟨S8192x2048, .f32⟩
  | .hbm, ⟨21, _⟩ => ⟨S8192, .f32⟩
  | .hbm, ⟨22, _⟩ => ⟨S8192, .f32⟩
  | .hbm, ⟨23, _⟩ => ⟨S2048x8192, .f32⟩
  | .hbm, ⟨24, _⟩ => ⟨S8192x8192, .f32⟩
  | .hbm, ⟨25, _⟩ => ⟨S1x8192, .f32⟩
  | .hbm, ⟨26, _⟩ => ⟨S8192x8192, .f32⟩
  | .hbm, ⟨27, _⟩ => ⟨S8192x8192, .f32⟩
  | .hbm, ⟨28, _⟩ => ⟨S2048x8192, .f32⟩
  | .hbm, ⟨29, _⟩ => ⟨S8192x8192, .f32⟩
  | .hbm, ⟨30, _⟩ => ⟨S8192x8192, .f32⟩
  | .hbm, ⟨31, _⟩ => ⟨S1x8192, .f32⟩
  | .hbm, ⟨32, _⟩ => ⟨S8192x8192, .f32⟩
  | .hbm, ⟨33, _⟩ => ⟨S8192x8192, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S8192x2048, .f32⟩
  | .hbm, ⟨50, _⟩ => ⟨S8192x2048, .f32⟩
  | .hbm, ⟨51, _⟩ => ⟨S_, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S_, .f32⟩
  | .hbm, ⟨57, _⟩ => ⟨S8192x2048, .f32⟩
  | .hbm, ⟨58, _⟩ => ⟨S8192x2048, .f32⟩
  | .hbm, ⟨59, _⟩ => ⟨S_, .f32⟩
  | .hbm, ⟨60, _⟩ => ⟨S8192x2048, .f32⟩
  | .hbm, ⟨61, _⟩ => ⟨S8192x2048, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst : Ref sig .tc := ⟨.hbm, 40, rfl⟩
abbrev main_v21 : Ref sig .tc := ⟨.hbm, 41, rfl⟩
abbrev main_v22 : Ref sig .tc := ⟨.hbm, 42, rfl⟩
abbrev main_cst_0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_1 : Ref sig .tc := ⟨.hbm, 48, rfl⟩
abbrev main_v27 : Ref sig .tc := ⟨.hbm, 49, rfl⟩
abbrev main_v28 : Ref sig .tc := ⟨.hbm, 50, rfl⟩
abbrev main_cst_2 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_3 : Ref sig .tc := ⟨.hbm, 56, rfl⟩
abbrev main_v33 : Ref sig .tc := ⟨.hbm, 57, rfl⟩
abbrev main_v34 : Ref sig .tc := ⟨.hbm, 58, rfl⟩
abbrev main_cst_4 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩

abbrev nD : Nat := 1
abbrev τ : Topo := Topo.v7x

variable {F : FTy → Type} [FloatOps F]

class Facts₀ : Prop where
  concatenates_S2048x2048_S2048x2048_S2048x2048_S2048x2048_S8192x2048_d0 : Shape.Concatenates [S2048x2048, S2048x2048, S2048x2048, S2048x2048] S8192x2048 0
  concatenates_S2048_S2048_S2048_S2048_S8192_d0 : Shape.Concatenates [S2048, S2048, S2048, S2048] S8192 0
  transposes_S8192x2048_S2048x8192_1_0 : S8192x2048.Transposes [1, 0] S2048x8192
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  slices_S8192x8192_S8192x2048_0_0 : S8192x8192.Slices ![0, 0] S8192x2048
  slices_S8192x8192_S8192x2048_0_2048 : S8192x8192.Slices ![0, 2048] S8192x2048
  slices_S8192x8192_S8192x2048_0_4096 : S8192x8192.Slices ![0, 4096] S8192x2048
  slices_S8192x8192_S8192x2048_0_6144 : S8192x8192.Slices ![0, 6144] S8192x2048
  bcast_S_S8192x2048 : S_.BroadcastsInDim S8192x2048 (![] : Fin 0 → Fin S8192x2048.rank)
  dot_S8192x2048_S2048x8192_S8192x8192_1_0_0_1_n_n_wf : DotDims.WF S8192x2048 S2048x8192 S8192x8192 [1] [0] [0] [1] [] []

variable [Facts₀]

def dot_S8192x2048_S2048x8192_S8192x8192_1_0_0_1_n_n : DotDims S8192x2048 S2048x8192 S8192x8192 where
  lhsContracting := [1]
  rhsContracting := [0]
  lhsNonContracting := [0]
  rhsNonContracting := [1]
  lhsBatch := []
  rhsBatch := []
  wf := dot_S8192x2048_S2048x8192_S8192x8192_1_0_0_1_n_n_wf

class Facts : Prop extends Facts₀ where

variable [Facts]
-- ==== Proof.Spec.lean ====
/-
  The long short-term memory cell as one function of its nineteen argument arrays, index by index, on the
  extended reals.

  A gate's pre-activation at batch row `r` and feature `j` is the affine form
      (sum over k of x[r,k] * Wx[j,k]) + (sum over k of h[r,k] * Wh[j,k]) + (bx[j] + bh[j]),
  the two inner products first, the two biases joined. The cell then is
      o     = sigma(lin_o),
      c_new = sigma(lin_f) * c + sigma(lin_i) * tanh(lin_c),
      h_new = o * c_new,
  with sigma the logistic function `1 / (1 + e^(-x))` and both transcendental functions read at the extended
  reals with their limits at the infinities.

  The only algebra between two spellings of the pre-activation is that addition on the extended reals is
  commutative and associative (`lin_regroup`): no distributivity, no cancelling, so no finiteness is needed.
-/
import Idealize.ShloMosaic.PureOps.Ideal
import Idealize.ShloMosaic.PureOps.Ideal.Laws
import Idealize.ShloMosaic.Lib.ValueIdx

noncomputable section

namespace Cert.LstmSpec

open Idealize.ShloMosaic Idealize.ShloMosaic.ValueIdx

/-- batch by feature -/
abbrev SBD : Shape := ⟨2, ![8192, 2048]⟩
/-- a gate's weight matrix, output feature by input feature -/
abbrev SDD : Shape := ⟨2, ![2048, 2048]⟩
/-- a gate's bias -/
abbrev SD : Shape := ⟨1, ![2048]⟩

/-- The inner product of row `r` of `a` with row `j` of `W`: entry `(r, j)` of `a` times the transpose of `W`. -/
def rowDot (a : SBD.Idx → EReal) (W : SDD.Idx → EReal) (r : Fin 8192) (j : Fin 2048) : EReal :=
  ∑ k : Fin 2048, a (ix2 r k) * W (ix2 j k)

/-- A gate's pre-activation: the input's and the hidden state's projections, then the two biases joined. -/
def gateLin (x h : SBD.Idx → EReal) (Wx Wh : SDD.Idx → EReal) (bx bh : SD.Idx → EReal) : SBD.Idx → EReal :=
  fun i => (rowDot x Wx (i 0) (i 1) + rowDot h Wh (i 0) (i 1)) + (bx (ix1 (i 1)) + bh (ix1 (i 1)))

/-- The output gate. -/
def outGate (lo : SBD.Idx → EReal) : SBD.Idx → EReal := fun i => Ideal.logistic (lo i)

/-- The new cell state: the forget gate times the old state plus the input gate times the candidate. -/
def cellNew (lf li lc c : SBD.Idx → EReal) : SBD.Idx → EReal :=
  fun i => Ideal.logistic (lf i) * c i + Ideal.logistic (li i) * Ideal.tanh (lc i)

/-- The new hidden state: the output gate times the new cell state. -/
def hidNew (lf li lo lc c : SBD.Idx → EReal) : SBD.Idx → EReal :=
  fun i => Ideal.logistic (lo i) * cellNew lf li lc c i

/-- The pre-activation summed in the other order — the input's projection and its bias, then the hidden state's
    projection, then its bias — is the same extended real: addition there is commutative and associative. -/
theorem lin_regroup (A B p q : EReal) : ((A + p) + B) + q = (A + B) + (p + q) := by
  rw [add_assoc (A + p) B q, add_add_add_comm A p B q]

/-- The word of the float one denotes the real one. -/
theorem ofBits_one_f32 : Ideal.ofBits .f32 0x3F800000#32 = 1 := by
  simp [Ideal.ofBits, Ideal.ieee, -EReal.coe_mul]; norm_num

/-- The logistic function spelled with the host's operations: one over one plus the exponential of the negation. -/
theorem logistic_spelled (z : EReal) : Ideal.div 1 (1 + Ideal.exp (-z)) = Ideal.logistic z := rfl

end Cert.LstmSpec

end
-- ==== Proof.KerPay.lean ====
/-
  One grid point of the kernel, read at an entry of its 512 x 256 tile.

  The body multiplies the point's 512 rows of `x` (and of `h`) against 256 rows of a gate's weight matrix,
  contracting the 2048 input features of both (a product with the transpose), so entry `(p, q)` of a tile product
  is the inner product of row `p` of the activations' block with row `q` of the weights' block (`tileDot`). A gate's
  pre-activation is the two tile products added and then the gate's bias row added, the one row broadcast down the
  512 rows. The three stored tiles are the logistic of the output gate's pre-activation, the new cell state and
  their product.
-/
import proofs.«173562_j8804682957036_1_alg».proof.Proof.Gen.KernelIdeal.Skeleton
import proofs.«173562_j8804682957036_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx

/-! ## The product of two blocks along their rows -/

theorem lhs_tile_0 (i : S512x256.Idx) (q : dot_S512x2048_S256x2048_S512x256_1_1_0_0_n_n.contr.Idx) :
    (dot_S512x2048_S256x2048_S512x256_1_1_0_0_n_n.lhsIdx i q 0).val = (i 0).val := by
  unfold DotDims.lhsIdx
  rw [dif_neg (show ¬(0 : Fin S512x2048.rank) ∈ dot_S512x2048_S256x2048_S512x256_1_1_0_0_n_n.lhsBatch by decide), dif_pos (show (0 : Fin S512x2048.rank) ∈ dot_S512x2048_S256x2048_S512x256_1_1_0_0_n_n.lhsNonContracting by decide)]
  rfl
theorem lhs_tile_1 (i : S512x256.Idx) (q : dot_S512x2048_S256x2048_S512x256_1_1_0_0_n_n.contr.Idx) :
    (dot_S512x2048_S256x2048_S512x256_1_1_0_0_n_n.lhsIdx i q 1).val = (q ⟨0, by decide⟩).val :=
  dot_S512x2048_S256x2048_S512x256_1_1_0_0_n_n.lhsIdx_val_of_single rfl i q
theorem rhs_tile_0 (i : S512x256.Idx) (q : dot_S512x2048_S256x2048_S512x256_1_1_0_0_n_n.contr.Idx) :
    (dot_S512x2048_S256x2048_S512x256_1_1_0_0_n_n.rhsIdx i q 0).val = (i 1).val := by
  unfold DotDims.rhsIdx
  rw [dif_neg (show ¬(0 : Fin S256x2048.rank) ∈ dot_S512x2048_S256x2048_S512x256_1_1_0_0_n_n.rhsBatch by decide), dif_pos (show (0 : Fin S256x2048.rank) ∈ dot_S512x2048_S256x2048_S512x256_1_1_0_0_n_n.rhsNonContracting by decide)]
  rfl
theorem rhs_tile_1 (i : S512x256.Idx) (q : dot_S512x2048_S256x2048_S512x256_1_1_0_0_n_n.contr.Idx) :
    (dot_S512x2048_S256x2048_S512x256_1_1_0_0_n_n.rhsIdx i q 1).val = (q ⟨0, by decide⟩).val :=
  dot_S512x2048_S256x2048_S512x256_1_1_0_0_n_n.rhsIdx_val_of_single rfl i q

/-- Row `p` of a 512 x 2048 block against row `q` of a 256 x 2048 block. -/
def tileDot (P : FVec Ideal S512x2048 .bf16) (Q : FVec Ideal S256x2048 .bf16) (p : Fin 512) (q : Fin 256) : EReal :=
  ∑ k : Fin 2048, P (ix2 p k) * Q (ix2 q k)

/-- The matrix unit's product into a zero accumulator, both operands contracted along their second axis, is that
    inner product at every entry. -/
theorem matmul_tile (P : FVec Ideal S512x2048 .bf16) (Q : FVec Ideal S256x2048 .bf16) (p : Fin 512) (q : Fin 256) :
    matmul dot_S512x2048_S256x2048_S512x256_1_1_0_0_n_n none P Q (constant (F := Ideal) S512x256 .f32 0x00000000#32) (ix2 p q) = tileDot P Q p q := by
  unfold tileDot
  refine (Ideal.matmul_constant_zero_apply dot_S512x2048_S256x2048_S512x256_1_1_0_0_n_n none P Q (ix2 p q)).trans ?_
  rw [← Equiv.sum_comp (ValueIdx.contrEquiv1 dot_S512x2048_S256x2048_S512x256_1_1_0_0_n_n 2048 rfl rfl).symm]
  refine Finset.sum_congr rfl fun k _ => ?_
  have hk := ValueIdx.contrEquiv1_symm_val dot_S512x2048_S256x2048_S512x256_1_1_0_0_n_n 2048 rfl rfl k
  have el : dot_S512x2048_S256x2048_S512x256_1_1_0_0_n_n.lhsIdx (ix2 p q) ((ValueIdx.contrEquiv1 dot_S512x2048_S256x2048_S512x256_1_1_0_0_n_n 2048 rfl rfl).symm k) = ix2 p k := funext fun a => Fin.ext (by
    match a with
    | ⟨0, _⟩ => exact lhs_tile_0 _ _
    | ⟨1, _⟩ => exact (lhs_tile_1 _ _).trans hk)
  have er : dot_S512x2048_S256x2048_S512x256_1_1_0_0_n_n.rhsIdx (ix2 p q) ((ValueIdx.contrEquiv1 dot_S512x2048_S256x2048_S512x256_1_1_0_0_n_n 2048 rfl rfl).symm k) = ix2 q k := funext fun a => Fin.ext (by
    match a with
    | ⟨0, _⟩ => exact rhs_tile_0 _ _
    | ⟨1, _⟩ => exact (rhs_tile_1 _ _).trans hk)
  rw [el, er]

/-! ## The body's values at an entry -/

/-- A block cast to its own shape is itself. -/
theorem pay4_eq (X : FVec Ideal S512x2048 .bf16) : k0_pay4 (F := Ideal) X = X := shapeCast_self X _
theorem pay5_eq (H : FVec Ideal S512x2048 .bf16) : k0_pay5 (F := Ideal) H = H := shapeCast_self H _

/-- The input's projection for one gate, at an entry. -/
theorem pay8_apply (X : FVec Ideal S512x2048 .bf16) (W : FVec Ideal S256x2048 .bf16) (p : Fin 512) (q : Fin 256) :
    k0_pay8 (F := Ideal) X W (ix2 p q) = tileDot X W p q := by
  show matmul dot_S512x2048_S256x2048_S512x256_1_1_0_0_n_n none (k0_pay4 (F := Ideal) X) (shapeCast S256x2048 W shapeCasts_S256x2048_S256x2048) (constant (F := Ideal) S512x256 .f32 0x00000000#32) (ix2 p q) = _
  rw [pay4_eq, shapeCast_self]
  exact matmul_tile X W p q

/-- The hidden state's projection for one gate, at an entry. -/
theorem pay9_apply (H : FVec Ideal S512x2048 .bf16) (W : FVec Ideal S256x2048 .bf16) (p : Fin 512) (q : Fin 256) :
    k0_pay9 (F := Ideal) H W (ix2 p q) = tileDot H W p q := by
  show matmul dot_S512x2048_S256x2048_S512x256_1_1_0_0_n_n none (k0_pay5 (F := Ideal) H) (shapeCast S256x2048 W shapeCasts_S256x2048_S256x2048) (constant (F := Ideal) S512x256 .f32 0x00000000#32) (ix2 p q) = _
  rw [pay5_eq, shapeCast_self]
  exact matmul_tile H W p q

/-- A gate's bias row broadcast down the tile reads the row at the entry's column. -/
theorem bias_row (b : FVec Ideal S1x256 .f32) (p : Fin 512) (q : Fin 256) :
    broadcastTo S512x256 (shapeCast S1x256 b shapeCasts_S1x256_S1x256) broadcasts_S1x256_S512x256 (ix2 p q) = b (ix2 (0 : Fin 1) q) := by
  rw [shapeCast_self]
  exact broadcastTo_1b_ab_apply b _ p q

/-- A gate's pre-activation on the tile: the two projections, then the bias row. -/
def tileLin (X H : FVec Ideal S512x2048 .bf16) (Wx Wh : FVec Ideal S256x2048 .bf16) (b : FVec Ideal S1x256 .f32)
    (p : Fin 512) (q : Fin 256) : EReal :=
  (tileDot X Wx p q + tileDot H Wh p q) + b (ix2 (0 : Fin 1) q)

theorem pay6_eq (X H : FVec Ideal S512x2048 .bf16) (Wx Wh : FVec Ideal S256x2048 .bf16) (b : FVec Ideal S1x256 .f32) :
    k0_pay6 (F := Ideal) X H Wx Wh b = addf (addf (k0_pay8 (F := Ideal) X Wx) (k0_pay9 (F := Ideal) H Wh))
      (broadcastTo S512x256 (shapeCast S1x256 b shapeCasts_S1x256_S1x256) broadcasts_S1x256_S512x256) := rfl

theorem pay7_eq (X H : FVec Ideal S512x2048 .bf16) (Wx Wh : FVec Ideal S256x2048 .bf16) (b : FVec Ideal S1x256 .f32) :
    k0_pay7 (F := Ideal) X H Wx Wh b = addf (addf (k0_pay8 (F := Ideal) X Wx) (k0_pay9 (F := Ideal) H Wh))
      (broadcastTo S512x256 (shapeCast S1x256 b shapeCasts_S1x256_S1x256) broadcasts_S1x256_S512x256) := rfl

/-- The forget gate's pre-activation at an entry. -/
theorem pay6_apply (X H : FVec Ideal S512x2048 .bf16) (Wx Wh : FVec Ideal S256x2048 .bf16) (b : FVec Ideal S1x256 .f32)
    (p : Fin 512) (q : Fin 256) : k0_pay6 (F := Ideal) X H Wx Wh b (ix2 p q) = tileLin X H Wx Wh b p q := by
  rw [pay6_eq]
  show (k0_pay8 (F := Ideal) X Wx (ix2 p q) + k0_pay9 (F := Ideal) H Wh (ix2 p q)) + broadcastTo S512x256 (shapeCast S1x256 b shapeCasts_S1x256_S1x256) broadcasts_S1x256_S512x256 (ix2 p q) = _
  rw [pay8_apply, pay9_apply, bias_row]
  rfl

/-- The input gate's pre-activation at an entry. -/
theorem pay7_apply (X H : FVec Ideal S512x2048 .bf16) (Wx Wh : FVec Ideal S256x2048 .bf16) (b : FVec Ideal S1x256 .f32)
    (p : Fin 512) (q : Fin 256) : k0_pay7 (F := Ideal) X H Wx Wh b (ix2 p q) = tileLin X H Wx Wh b p q := by
  rw [pay7_eq]
  show (k0_pay8 (F := Ideal) X Wx (ix2 p q) + k0_pay9 (F := Ideal) H Wh (ix2 p q)) + broadcastTo S512x256 (shapeCast S1x256 b shapeCasts_S1x256_S1x256) broadcasts_S1x256_S512x256 (ix2 p q) = _
  rw [pay8_apply, pay9_apply, bias_row]
  rfl

/-- The stored output gate at an entry: the logistic of the two projections and the bias row. -/
theorem pay1_apply (A B : FVec Ideal S512x256 .f32) (b : FVec Ideal S1x256 .f32) (p : Fin 512) (q : Fin 256) :
    k0_pay1 (F := Ideal) A B b (ix2 p q) = Ideal.logistic ((A (ix2 p q) + B (ix2 p q)) + b (ix2 (0 : Fin 1) q)) := by
  show Ideal.logistic ((A (ix2 p q) + B (ix2 p q)) + broadcastTo S512x256 (shapeCast S1x256 b shapeCasts_S1x256_S1x256) broadcasts_S1x256_S512x256 (ix2 p q)) = _
  rw [bias_row]

/-- The stored new cell state at an entry: the forget gate times the old state plus the input gate times the
    hyperbolic tangent of the candidate's pre-activation. -/
theorem pay2_apply (X H : FVec Ideal S512x2048 .bf16) (vf vi : FVec Ideal S512x256 .f32) (Wx Wh : FVec Ideal S256x2048 .bf16)
    (b : FVec Ideal S1x256 .f32) (c : FVec Ideal S512x256 .f32) (p : Fin 512) (q : Fin 256) :
    k0_pay2 (F := Ideal) X H vf vi Wx Wh b c (ix2 p q)
      = Ideal.logistic (vf (ix2 p q)) * c (ix2 p q) + Ideal.logistic (vi (ix2 p q)) * Ideal.tanh (tileLin X H Wx Wh b p q) := by
  show Ideal.logistic (vf (ix2 p q)) * c (ix2 p q) + Ideal.logistic (vi (ix2 p q)) * Ideal.tanh
      ((matmul dot_S512x2048_S256x2048_S512x256_1_1_0_0_n_n none X (shapeCast S256x2048 Wx shapeCasts_S256x2048_S256x2048) (constant (F := Ideal) S512x256 .f32 0x00000000#32) (ix2 p q)
        + matmul dot_S512x2048_S256x2048_S512x256_1_1_0_0_n_n none H (shapeCast S256x2048 Wh shapeCasts_S256x2048_S256x2048) (constant (F := Ideal) S512x256 .f32 0x00000000#32) (ix2 p q))
        + broadcastTo S512x256 (shapeCast S1x256 b shapeCasts_S1x256_S1x256) broadcasts_S1x256_S512x256 (ix2 p q)) = _
  rw [shapeCast_self Wx, shapeCast_self Wh, matmul_tile, matmul_tile, bias_row]
  rfl

/-- The stored new hidden state is the stored output gate times the stored new cell state. -/
theorem pay3_eq (X H : FVec Ideal S512x2048 .bf16) (vf vi A B : FVec Ideal S512x256 .f32) (bo : FVec Ideal S1x256 .f32)
    (Wx Wh : FVec Ideal S256x2048 .bf16) (b : FVec Ideal S1x256 .f32) (c : FVec Ideal S512x256 .f32) (i : S512x256.Idx) :
    k0_pay3 (F := Ideal) X H vf vi A B bo Wx Wh b c i
      = k0_pay1 (F := Ideal) A B bo i * k0_pay2 (F := Ideal) X H vf vi Wx Wh b c i := rfl

end Cert.KernelIdeal.Tile

end
-- ==== Proof.TileCell.lean ====
/-
  A tile of the kernel is a restriction of the whole cell.

  Suppose the point's block of activations holds rows `ρ p` of `x` and of `h`, and a gate's blocks of weights and
  its bias row hold rows `γ q` of the gate's matrices and entries `γ q` of its two biases added. Then every inner
  product of the tile is the whole arrays' inner product of row `ρ p` with row `γ q`, so the tile's pre-activation
  is the cell's at `(ρ p, γ q)` with no algebra at all, and the three stored tiles are the cell's three results
  there.
-/
import proofs.«173562_j8804682957036_1_alg».proof.Proof.KerPay

noncomputable section

namespace Cert.KernelIdeal.Tile

open Cert.KernelIdeal Cert.KernelIdeal.Gen Idealize.ShloMosaic Idealize.ShloMosaic.ValueIdx
open Cert.LstmSpec

/-- The activations' blocks hold rows `ρ p` of the whole activations. -/
def ActReads (ρ : Fin 512 → Fin 8192) (X H : FVec Ideal S512x2048 .bf16) (xa ha : SBD.Idx → EReal) : Prop :=
  (∀ p k, X (ix2 p k) = xa (ix2 (ρ p) k)) ∧ (∀ p k, H (ix2 p k) = ha (ix2 (ρ p) k))

/-- A gate's blocks hold rows `γ q` of its two matrices, and its bias row the two biases added at `γ q`. -/
def GateReads (γ : Fin 256 → Fin 2048) (Wx Wh : FVec Ideal S256x2048 .bf16) (b : FVec Ideal S1x256 .f32)
    (WX WH : SDD.Idx → EReal) (bx bh : SD.Idx → EReal) : Prop :=
  (∀ q k, Wx (ix2 q k) = WX (ix2 (γ q) k)) ∧ (∀ q k, Wh (ix2 q k) = WH (ix2 (γ q) k))
    ∧ (∀ q, b (ix2 (0 : Fin 1) q) = bx (ix1 (γ q)) + bh (ix1 (γ q)))

variable {ρ : Fin 512 → Fin 8192} {γ : Fin 256 → Fin 2048}
variable {X H : FVec Ideal S512x2048 .bf16} {xa ha : SBD.Idx → EReal}

/-- A tile's pre-activation is the cell's, at the row and the column the tile's blocks came from. -/
theorem tileLin_eq {Wx Wh : FVec Ideal S256x2048 .bf16} {b : FVec Ideal S1x256 .f32}
    {WX WH : SDD.Idx → EReal} {bx bh : SD.Idx → EReal}
    (hA : ActReads ρ X H xa ha) (hG : GateReads γ Wx Wh b WX WH bx bh) (p : Fin 512) (q : Fin 256) :
    tileLin X H Wx Wh b p q = gateLin xa ha WX WH bx bh (ix2 (ρ p) (γ q)) := by
  obtain ⟨hX, hH⟩ := hA
  obtain ⟨hWx, hWh, hb⟩ := hG
  show ((∑ k : Fin 2048, X (ix2 p k) * Wx (ix2 q k)) + (∑ k : Fin 2048, H (ix2 p k) * Wh (ix2 q k))) + b (ix2 (0 : Fin 1) q)
    = ((∑ k : Fin 2048, xa (ix2 (ρ p) k) * WX (ix2 (γ q) k)) + (∑ k : Fin 2048, ha (ix2 (ρ p) k) * WH (ix2 (γ q) k)))
        + (bx (ix1 (γ q)) + bh (ix1 (γ q)))
  simp only [hX, hH, hWx, hWh, hb]

variable {Wox Woh : FVec Ideal S256x2048 .bf16} {bo : FVec Ideal S1x256 .f32}
  {WoX WoH : SDD.Idx → EReal} {box boh : SD.Idx → EReal}

/-- The stored output gate is the cell's output gate there. -/
theorem tile_out (hA : ActReads ρ X H xa ha) (hO : GateReads γ Wox Woh bo WoX WoH box boh) (p : Fin 512) (q : Fin 256) :
    k0_pay1 (F := Ideal) (k0_pay8 (F := Ideal) X Wox) (k0_pay9 (F := Ideal) H Woh) bo (ix2 p q)
      = outGate (gateLin xa ha WoX WoH box boh) (ix2 (ρ p) (γ q)) := by
  rw [pay1_apply, pay8_apply, pay9_apply]
  show Ideal.logistic (tileLin X H Wox Woh bo p q) = Ideal.logistic (gateLin xa ha WoX WoH box boh (ix2 (ρ p) (γ q)))
  rw [tileLin_eq hA hO]

variable {Wfx Wfh Wix Wih Wcx Wch : FVec Ideal S256x2048 .bf16} {bf bi bc : FVec Ideal S1x256 .f32}
  {WfX WfH WiX WiH WcX WcH : SDD.Idx → EReal} {bfx bfh bix bih bcx bch : SD.Idx → EReal}
  {c : FVec Ideal S512x256 .f32} {ca : SBD.Idx → EReal}

/-- The stored new cell state is the cell's new state there. -/
theorem tile_cell (hA : ActReads ρ X H xa ha) (hF : GateReads γ Wfx Wfh bf WfX WfH bfx bfh)
    (hI : GateReads γ Wix Wih bi WiX WiH bix bih) (hC : GateReads γ Wcx Wch bc WcX WcH bcx bch)
    (hc : ∀ p q, c (ix2 p q) = ca (ix2 (ρ p) (γ q))) (p : Fin 512) (q : Fin 256) :
    k0_pay2 (F := Ideal) (k0_pay4 (F := Ideal) X) (k0_pay5 (F := Ideal) H) (k0_pay6 (F := Ideal) X H Wfx Wfh bf)
        (k0_pay7 (F := Ideal) X H Wix Wih bi) Wcx Wch bc c (ix2 p q)
      = cellNew (gateLin xa ha WfX WfH bfx bfh) (gateLin xa ha WiX WiH bix bih) (gateLin xa ha WcX WcH bcx bch) ca
          (ix2 (ρ p) (γ q)) := by
  rw [pay2_apply, pay6_apply, pay7_apply, pay4_eq, pay5_eq, tileLin_eq hA hF, tileLin_eq hA hI, tileLin_eq hA hC, hc]
  rfl

/-- The stored new hidden state is the cell's new hidden state there. -/
theorem tile_hid (hA : ActReads ρ X H xa ha) (hF : GateReads γ Wfx Wfh bf WfX WfH bfx bfh)
    (hI : GateReads γ Wix Wih bi WiX WiH bix bih) (hO : GateReads γ Wox Woh bo WoX WoH box boh)
    (hC : GateReads γ Wcx Wch bc WcX WcH bcx bch)
    (hc : ∀ p q, c (ix2 p q) = ca (ix2 (ρ p) (γ q))) (p : Fin 512) (q : Fin 256) :
    k0_pay3 (F := Ideal) (k0_pay4 (F := Ideal) X) (k0_pay5 (F := Ideal) H) (k0_pay6 (F := Ideal) X H Wfx Wfh bf)
        (k0_pay7 (F := Ideal) X H Wix Wih bi) (k0_pay8 (F := Ideal) X Wox) (k0_pay9 (F := Ideal) H Woh) bo Wcx Wch bc c (ix2 p q)
      = hidNew (gateLin xa ha WfX WfH bfx bfh) (gateLin xa ha WiX WiH bix bih) (gateLin xa ha WoX WoH box boh)
          (gateLin xa ha WcX WcH bcx bch) ca (ix2 (ρ p) (γ q)) := by
  rw [pay3_eq, tile_out hA hO, tile_cell hA hF hI hC hc]
  rfl

end Cert.KernelIdeal.Tile

end
-- ==== Proof.KerArr.lean ====
/-
  From tiles to arrays: the kernel's three results are the cell of the specification.

  The grid has 8 x 16 points; the point with grid coordinates `(d, b)` computes the 512 x 256 tile at block row
  `b` and block column `d` of each result. Its blocks of `x` and `h` are rows `512 b ..` of the activations (all
  2048 columns), its blocks of the eight weight matrices rows `256 d ..` of each, its four bias rows columns
  `256 d ..` of the two biases of each gate added on the host, and its block of `c` the tile itself. The host
  operations before the call only change the float format of the activations and weights (the identity on the
  extended reals) and add the two biases of each gate. So each tile is the cell restricted to the tile's rows and
  columns, and since the 128 tiles cover each result array, each array is the cell.
-/
import proofs.«173562_j8804682957036_1_alg».proof.Proof.Gen.KernelIdeal.Value
import proofs.«173562_j8804682957036_1_alg».proof.Proof.TileCell
import Idealize.ShloMosaic.Lib.StableHlo.Run

noncomputable section

namespace Cert.KernelIdeal.Arr

open Cert.KernelIdeal Cert.KernelIdeal.Gen Cert.KernelIdeal.Tile Idealize.ShloMosaic Idealize.ShloMosaic.ValueIdx
open Idealize.ShloMosaic.TcCoe Idealize.SL.Sem Idealize.ShloMosaic.StableHlo
open Idealize.ShloMosaic.Pipeline (Dat)
open Cert.LstmSpec

variable (m : (ℓ : Loc nD τ sig) → Buf (Elt Ideal) ℓ) (ρ : Dev nD → PrngReg)

/-! ## What the host operations before the call leave: the arguments in another float format, and the biases added -/

theorem V_main_v0 (c : Dev nD) : (V m c main_v0 : S8192x2048.Idx → EReal) = (m ((c : Thread nD τ).loc main_arg0) : S8192x2048.Idx → EReal) := by
  dsimp only [Gen.V, Gen.hostOps0]; after_results; rfl
theorem V_main_v1 (c : Dev nD) : (V m c main_v1 : S8192x2048.Idx → EReal) = (m ((c : Thread nD τ).loc main_arg1) : S8192x2048.Idx → EReal) := by
  dsimp only [Gen.V, Gen.hostOps0]; after_results; rfl
theorem V_main_v2 (c : Dev nD) : (V m c main_v2 : S2048x2048.Idx → EReal) = (m ((c : Thread nD τ).loc main_arg3) : S2048x2048.Idx → EReal) := by
  dsimp only [Gen.V, Gen.hostOps0]; after_results; rfl
theorem V_main_v3 (c : Dev nD) : (V m c main_v3 : S2048x2048.Idx → EReal) = (m ((c : Thread nD τ).loc main_arg5) : S2048x2048.Idx → EReal) := by
  dsimp only [Gen.V, Gen.hostOps0]; after_results; rfl
theorem V_main_v4 (c : Dev nD) : (V m c main_v4 : S2048x2048.Idx → EReal) = (m ((c : Thread nD τ).loc main_arg7) : S2048x2048.Idx → EReal) := by
  dsimp only [Gen.V, Gen.hostOps0]; after_results; rfl
theorem V_main_v5 (c : Dev nD) : (V m c main_v5 : S2048x2048.Idx → EReal) = (m ((c : Thread nD τ).loc main_arg9) : S2048x2048.Idx → EReal) := by
  dsimp only [Gen.V, Gen.hostOps0]; after_results; rfl
theorem V_main_v6 (c : Dev nD) : (V m c main_v6 : S2048x2048.Idx → EReal) = (m ((c : Thread nD τ).loc main_arg11) : S2048x2048.Idx → EReal) := by
  dsimp only [Gen.V, Gen.hostOps0]; after_results; rfl
theorem V_main_v7 (c : Dev nD) : (V m c main_v7 : S2048x2048.Idx → EReal) = (m ((c : Thread nD τ).loc main_arg13) : S2048x2048.Idx → EReal) := by
  dsimp only [Gen.V, Gen.hostOps0]; after_results; rfl
theorem V_main_v8 (c : Dev nD) : (V m c main_v8 : S2048x2048.Idx → EReal) = (m ((c : Thread nD τ).loc main_arg15) : S2048x2048.Idx → EReal) := by
  dsimp only [Gen.V, Gen.hostOps0]; after_results; rfl
theorem V_main_v9 (c : Dev nD) : (V m c main_v9 : S2048x2048.Idx → EReal) = (m ((c : Thread nD τ).loc main_arg17) : S2048x2048.Idx → EReal) := by
  dsimp only [Gen.V, Gen.hostOps0]; after_results; rfl
theorem V_main_v11 (c : Dev nD) : (V m c main_v11 : S1x2048.Idx → EReal)
    = shapeCast S1x2048 (@addf Ideal _ S2048 .f32 (m ((c : Thread nD τ).loc main_arg4)) (m ((c : Thread nD τ).loc main_arg6))) shapeCasts_S2048_S1x2048 := by
  dsimp only [Gen.V, Gen.hostOps0]; after_results; rfl
theorem V_main_v11_apply (c : Dev nD) (n : Fin 2048) : (V m c main_v11 : S1x2048.Idx → EReal) (ix2 (0 : Fin 1) n)
    = @addf Ideal _ S2048 .f32 (m ((c : Thread nD τ).loc main_arg4)) (m ((c : Thread nD τ).loc main_arg6)) (ix1 n) := by
  rw [V_main_v11]
  exact shapeCast_a_1a_apply _ _ 0 n
theorem V_main_v13 (c : Dev nD) : (V m c main_v13 : S1x2048.Idx → EReal)
    = shapeCast S1x2048 (@addf Ideal _ S2048 .f32 (m ((c : Thread nD τ).loc main_arg8)) (m ((c : Thread nD τ).loc main_arg10))) shapeCasts_S2048_S1x2048 := by
  dsimp only [Gen.V, Gen.hostOps0]; after_results; rfl
theorem V_main_v13_apply (c : Dev nD) (n : Fin 2048) : (V m c main_v13 : S1x2048.Idx → EReal) (ix2 (0 : Fin 1) n)
    = @addf Ideal _ S2048 .f32 (m ((c : Thread nD τ).loc main_arg8)) (m ((c : Thread nD τ).loc main_arg10)) (ix1 n) := by
  rw [V_main_v13]
  exact shapeCast_a_1a_apply _ _ 0 n
theorem V_main_v15 (c : Dev nD) : (V m c main_v15 : S1x2048.Idx → EReal)
    = shapeCast S1x2048 (@addf Ideal _ S2048 .f32 (m ((c : Thread nD τ).loc main_arg12)) (m ((c : Thread nD τ).loc main_arg14))) shapeCasts_S2048_S1x2048 := by
  dsimp only [Gen.V, Gen.hostOps0]; after_results; rfl
theorem V_main_v15_apply (c : Dev nD) (n : Fin 2048) : (V m c main_v15 : S1x2048.Idx → EReal) (ix2 (0 : Fin 1) n)
    = @addf Ideal _ S2048 .f32 (m ((c : Thread nD τ).loc main_arg12)) (m ((c : Thread nD τ).loc main_arg14)) (ix1 n) := by
  rw [V_main_v15]
  exact shapeCast_a_1a_apply _ _ 0 n
theorem V_main_v17 (c : Dev nD) : (V m c main_v17 : S1x2048.Idx → EReal)
    = shapeCast S1x2048 (@addf Ideal _ S2048 .f32 (m ((c : Thread nD τ).loc main_arg16)) (m ((c : Thread nD τ).loc main_arg18))) shapeCasts_S2048_S1x2048 := by
  dsimp only [Gen.V, Gen.hostOps0]; after_results; rfl
theorem V_main_v17_apply (c : Dev nD) (n : Fin 2048) : (V m c main_v17 : S1x2048.Idx → EReal) (ix2 (0 : Fin 1) n)
    = @addf Ideal _ S2048 .f32 (m ((c : Thread nD τ).loc main_arg16)) (m ((c : Thread nD τ).loc main_arg18)) (ix1 n) := by
  rw [V_main_v17]
  exact shapeCast_a_1a_apply _ _ 0 n

/-! ## Where each window's block sits, relative to the output tile's -/

theorem hz : (![0, 0] : Fin 2 → Nat) = fun _ => 0 := funext fun a => by fin_cases a <;> rfl

/-- The output tile's block row is below 16 and its block column below 8. -/
theorem idx_bounds : ∀ t : Fin cfg0.N, win0_15.index t (0 : Fin 2) ≤ 15 ∧ win0_15.index t (1 : Fin 2) ≤ 7 :=
  (by decide +kernel : ∀ t : Fin grid0.N, _)
/-- The activations' blocks follow the tile's block row and take all columns. -/
theorem idx_act : ∀ t : Fin cfg0.N, win0_0.index t (0 : Fin 2) = win0_15.index t (0 : Fin 2) ∧ win0_0.index t (1 : Fin 2) = 0
    ∧ win0_1.index t (0 : Fin 2) = win0_15.index t (0 : Fin 2) ∧ win0_1.index t (1 : Fin 2) = 0 :=
  (by decide +kernel : ∀ t : Fin grid0.N, _)
/-- The weights' blocks follow the tile's block column (as their block row) and take all columns. -/
theorem idx_w2 : ∀ t : Fin cfg0.N, win0_2.index t (0 : Fin 2) = win0_15.index t (1 : Fin 2) ∧ win0_2.index t (1 : Fin 2) = 0 :=
  (by decide +kernel : ∀ t : Fin grid0.N, _)
theorem idx_w3 : ∀ t : Fin cfg0.N, win0_3.index t (0 : Fin 2) = win0_15.index t (1 : Fin 2) ∧ win0_3.index t (1 : Fin 2) = 0 :=
  (by decide +kernel : ∀ t : Fin grid0.N, _)
theorem idx_w4 : ∀ t : Fin cfg0.N, win0_4.index t (0 : Fin 2) = win0_15.index t (1 : Fin 2) ∧ win0_4.index t (1 : Fin 2) = 0 :=
  (by decide +kernel : ∀ t : Fin grid0.N, _)
theorem idx_w5 : ∀ t : Fin cfg0.N, win0_5.index t (0 : Fin 2) = win0_15.index t (1 : Fin 2) ∧ win0_5.index t (1 : Fin 2) = 0 :=
  (by decide +kernel : ∀ t : Fin grid0.N, _)
theorem idx_w6 : ∀ t : Fin cfg0.N, win0_6.index t (0 : Fin 2) = win0_15.index t (1 : Fin 2) ∧ win0_6.index t (1 : Fin 2) = 0 :=
  (by decide +kernel : ∀ t : Fin grid0.N, _)
theorem idx_w7 : ∀ t : Fin cfg0.N, win0_7.index t (0 : Fin 2) = win0_15.index t (1 : Fin 2) ∧ win0_7.index t (1 : Fin 2) = 0 :=
  (by decide +kernel : ∀ t : Fin grid0.N, _)
theorem idx_w8 : ∀ t : Fin cfg0.N, win0_8.index t (0 : Fin 2) = win0_15.index t (1 : Fin 2) ∧ win0_8.index t (1 : Fin 2) = 0 :=
  (by decide +kernel : ∀ t : Fin grid0.N, _)
theorem idx_w9 : ∀ t : Fin cfg0.N, win0_9.index t (0 : Fin 2) = win0_15.index t (1 : Fin 2) ∧ win0_9.index t (1 : Fin 2) = 0 :=
  (by decide +kernel : ∀ t : Fin grid0.N, _)
/-- The bias rows follow the tile's block column. -/
theorem idx_b10 : ∀ t : Fin cfg0.N, win0_10.index t (0 : Fin 2) = 0 ∧ win0_10.index t (1 : Fin 2) = win0_15.index t (1 : Fin 2) :=
  (by decide +kernel : ∀ t : Fin grid0.N, _)
theorem idx_b11 : ∀ t : Fin cfg0.N, win0_11.index t (0 : Fin 2) = 0 ∧ win0_11.index t (1 : Fin 2) = win0_15.index t (1 : Fin 2) :=
  (by decide +kernel : ∀ t : Fin grid0.N, _)
theorem idx_b12 : ∀ t : Fin cfg0.N, win0_12.index t (0 : Fin 2) = 0 ∧ win0_12.index t (1 : Fin 2) = win0_15.index t (1 : Fin 2) :=
  (by decide +kernel : ∀ t : Fin grid0.N, _)
theorem idx_b13 : ∀ t : Fin cfg0.N, win0_13.index t (0 : Fin 2) = 0 ∧ win0_13.index t (1 : Fin 2) = win0_15.index t (1 : Fin 2) :=
  (by decide +kernel : ∀ t : Fin grid0.N, _)
/-- The old cell state's block, and the other two results' blocks, are the tile's. -/
theorem idx_c : ∀ t : Fin cfg0.N, win0_14.index t (0 : Fin 2) = win0_15.index t (0 : Fin 2) ∧ win0_14.index t (1 : Fin 2) = win0_15.index t (1 : Fin 2) :=
  (by decide +kernel : ∀ t : Fin grid0.N, _)
theorem idx_out : ∀ t : Fin cfg0.N, win0_16.index t (0 : Fin 2) = win0_15.index t (0 : Fin 2) ∧ win0_16.index t (1 : Fin 2) = win0_15.index t (1 : Fin 2)
    ∧ win0_17.index t (0 : Fin 2) = win0_15.index t (0 : Fin 2) ∧ win0_17.index t (1 : Fin 2) = win0_15.index t (1 : Fin 2) :=
  (by decide +kernel : ∀ t : Fin grid0.N, _)

/-- The array row of the tile's row `p` at point `t`. -/
def rowOf (t : Fin cfg0.N) (p : Fin 512) : Fin 8192 :=
  ⟨win0_15.index t (0 : Fin 2) * 512 + p.val, by have := (idx_bounds t).1; have := p.isLt; omega⟩
/-- The array column of the tile's column `q` at point `t`. -/
def colOf (t : Fin cfg0.N) (q : Fin 256) : Fin 2048 :=
  ⟨win0_15.index t (1 : Fin 2) * 256 + q.val, by have := (idx_bounds t).2; have := q.isLt; omega⟩

/-! ## The blocks read at an entry -/

abbrev blk0 (c : Dev nD) (t : Fin cfg0.N) : FVec Ideal S512x2048 .bf16 := iblk m c 0 t
abbrev blk1 (c : Dev nD) (t : Fin cfg0.N) : FVec Ideal S512x2048 .bf16 := iblk m c 1 t
abbrev blk2 (c : Dev nD) (t : Fin cfg0.N) : FVec Ideal S256x2048 .bf16 := iblk m c 2 t
abbrev blk3 (c : Dev nD) (t : Fin cfg0.N) : FVec Ideal S256x2048 .bf16 := iblk m c 3 t
abbrev blk4 (c : Dev nD) (t : Fin cfg0.N) : FVec Ideal S256x2048 .bf16 := iblk m c 4 t
abbrev blk5 (c : Dev nD) (t : Fin cfg0.N) : FVec Ideal S256x2048 .bf16 := iblk m c 5 t
abbrev blk6 (c : Dev nD) (t : Fin cfg0.N) : FVec Ideal S256x2048 .bf16 := iblk m c 6 t
abbrev blk7 (c : Dev nD) (t : Fin cfg0.N) : FVec Ideal S256x2048 .bf16 := iblk m c 7 t
abbrev blk8 (c : Dev nD) (t : Fin cfg0.N) : FVec Ideal S256x2048 .bf16 := iblk m c 8 t
abbrev blk9 (c : Dev nD) (t : Fin cfg0.N) : FVec Ideal S256x2048 .bf16 := iblk m c 9 t
abbrev blk10 (c : Dev nD) (t : Fin cfg0.N) : FVec Ideal S1x256 .f32 := iblk m c 10 t
abbrev blk11 (c : Dev nD) (t : Fin cfg0.N) : FVec Ideal S1x256 .f32 := iblk m c 11 t
abbrev blk12 (c : Dev nD) (t : Fin cfg0.N) : FVec Ideal S1x256 .f32 := iblk m c 12 t
abbrev blk13 (c : Dev nD) (t : Fin cfg0.N) : FVec Ideal S1x256 .f32 := iblk m c 13 t
abbrev blk14 (c : Dev nD) (t : Fin cfg0.N) : FVec Ideal S512x256 .f32 := iblk m c 14 t

theorem blk0_apply (c : Dev nD) (t : Fin cfg0.N) (p : Fin 512) (k : Fin 2048) :
    blk0 m c t (ix2 p k) = (m ((c : Thread nD τ).loc main_arg0) : S8192x2048.Idx → EReal) (ix2 (rowOf t p) k) := by
  show V m c main_v0 (((cfg0.win 0).blk t).view.emb (ix2 p k)) = _
  rw [V_main_v0]
  obtain ⟨e0, e1, e2, e3⟩ := idx_act t
  refine congrArg (m ((c : Thread nD τ).loc main_arg0) : S8192x2048.Idx → EReal) (funext fun a => Fin.ext ?_)
  match a with
  | ⟨0, _⟩ => show win0_0.index t (0 : Fin 2) * 512 + 1 * p.val = win0_15.index t (0 : Fin 2) * 512 + p.val; omega
  | ⟨1, _⟩ => show win0_0.index t (1 : Fin 2) * 2048 + 1 * k.val = k.val; omega

theorem blk1_apply (c : Dev nD) (t : Fin cfg0.N) (p : Fin 512) (k : Fin 2048) :
    blk1 m c t (ix2 p k) = (m ((c : Thread nD τ).loc main_arg1) : S8192x2048.Idx → EReal) (ix2 (rowOf t p) k) := by
  show V m c main_v1 (((cfg0.win 1).blk t).view.emb (ix2 p k)) = _
  rw [V_main_v1]
  obtain ⟨e0, e1, e2, e3⟩ := idx_act t
  refine congrArg (m ((c : Thread nD τ).loc main_arg1) : S8192x2048.Idx → EReal) (funext fun a => Fin.ext ?_)
  match a with
  | ⟨0, _⟩ => show win0_1.index t (0 : Fin 2) * 512 + 1 * p.val = win0_15.index t (0 : Fin 2) * 512 + p.val; omega
  | ⟨1, _⟩ => show win0_1.index t (1 : Fin 2) * 2048 + 1 * k.val = k.val; omega

theorem blk2_apply (c : Dev nD) (t : Fin cfg0.N) (q : Fin 256) (k : Fin 2048) :
    blk2 m c t (ix2 q k) = (m ((c : Thread nD τ).loc main_arg3) : S2048x2048.Idx → EReal) (ix2 (colOf t q) k) := by
  show V m c main_v2 (((cfg0.win 2).blk t).view.emb (ix2 q k)) = _
  rw [V_main_v2]
  obtain ⟨e0, e1⟩ := idx_w2 t
  refine congrArg (m ((c : Thread nD τ).loc main_arg3) : S2048x2048.Idx → EReal) (funext fun a => Fin.ext ?_)
  match a with
  | ⟨0, _⟩ => show win0_2.index t (0 : Fin 2) * 256 + 1 * q.val = win0_15.index t (1 : Fin 2) * 256 + q.val; omega
  | ⟨1, _⟩ => show win0_2.index t (1 : Fin 2) * 2048 + 1 * k.val = k.val; omega

theorem blk3_apply (c : Dev nD) (t : Fin cfg0.N) (q : Fin 256) (k : Fin 2048) :
    blk3 m c t (ix2 q k) = (m ((c : Thread nD τ).loc main_arg5) : S2048x2048.Idx → EReal) (ix2 (colOf t q) k) := by
  show V m c main_v3 (((cfg0.win 3).blk t).view.emb (ix2 q k)) = _
  rw [V_main_v3]
  obtain ⟨e0, e1⟩ := idx_w3 t
  refine congrArg (m ((c : Thread nD τ).loc main_arg5) : S2048x2048.Idx → EReal) (funext fun a => Fin.ext ?_)
  match a with
  | ⟨0, _⟩ => show win0_3.index t (0 : Fin 2) * 256 + 1 * q.val = win0_15.index t (1 : Fin 2) * 256 + q.val; omega
  | ⟨1, _⟩ => show win0_3.index t (1 : Fin 2) * 2048 + 1 * k.val = k.val; omega

theorem blk4_apply (c : Dev nD) (t : Fin cfg0.N) (q : Fin 256) (k : Fin 2048) :
    blk4 m c t (ix2 q k) = (m ((c : Thread nD τ).loc main_arg7) : S2048x2048.Idx → EReal) (ix2 (colOf t q) k) := by
  show V m c main_v4 (((cfg0.win 4).blk t).view.emb (ix2 q k)) = _
  rw [V_main_v4]
  obtain ⟨e0, e1⟩ := idx_w4 t
  refine congrArg (m ((c : Thread nD τ).loc main_arg7) : S2048x2048.Idx → EReal) (funext fun a => Fin.ext ?_)
  match a with
  | ⟨0, _⟩ => show win0_4.index t (0 : Fin 2) * 256 + 1 * q.val = win0_15.index t (1 : Fin 2) * 256 + q.val; omega
  | ⟨1, _⟩ => show win0_4.index t (1 : Fin 2) * 2048 + 1 * k.val = k.val; omega

theorem blk5_apply (c : Dev nD) (t : Fin cfg0.N) (q : Fin 256) (k : Fin 2048) :
    blk5 m c t (ix2 q k) = (m ((c : Thread nD τ).loc main_arg9) : S2048x2048.Idx → EReal) (ix2 (colOf t q) k) := by
  show V m c main_v5 (((cfg0.win 5).blk t).view.emb (ix2 q k)) = _
  rw [V_main_v5]
  obtain ⟨e0, e1⟩ := idx_w5 t
  refine congrArg (m ((c : Thread nD τ).loc main_arg9) : S2048x2048.Idx → EReal) (funext fun a => Fin.ext ?_)
  match a with
  | ⟨0, _⟩ => show win0_5.index t (0 : Fin 2) * 256 + 1 * q.val = win0_15.index t (1 : Fin 2) * 256 + q.val; omega
  | ⟨1, _⟩ => show win0_5.index t (1 : Fin 2) * 2048 + 1 * k.val = k.val; omega

theorem blk6_apply (c : Dev nD) (t : Fin cfg0.N) (q : Fin 256) (k : Fin 2048) :
    blk6 m c t (ix2 q k) = (m ((c : Thread nD τ).loc main_arg11) : S2048x2048.Idx → EReal) (ix2 (colOf t q) k) := by
  show V m c main_v6 (((cfg0.win 6).blk t).view.emb (ix2 q k)) = _
  rw [V_main_v6]
  obtain ⟨e0, e1⟩ := idx_w6 t
  refine congrArg (m ((c : Thread nD τ).loc main_arg11) : S2048x2048.Idx → EReal) (funext fun a => Fin.ext ?_)
  match a with
  | ⟨0, _⟩ => show win0_6.index t (0 : Fin 2) * 256 + 1 * q.val = win0_15.index t (1 : Fin 2) * 256 + q.val; omega
  | ⟨1, _⟩ => show win0_6.index t (1 : Fin 2) * 2048 + 1 * k.val = k.val; omega

theorem blk7_apply (c : Dev nD) (t : Fin cfg0.N) (q : Fin 256) (k : Fin 2048) :
    blk7 m c t (ix2 q k) = (m ((c : Thread nD τ).loc main_arg13) : S2048x2048.Idx → EReal) (ix2 (colOf t q) k) := by
  show V m c main_v7 (((cfg0.win 7).blk t).view.emb (ix2 q k)) = _
  rw [V_main_v7]
  obtain ⟨e0, e1⟩ := idx_w7 t
  refine congrArg (m ((c : Thread nD τ).loc main_arg13) : S2048x2048.Idx → EReal) (funext fun a => Fin.ext ?_)
  match a with
  | ⟨0, _⟩ => show win0_7.index t (0 : Fin 2) * 256 + 1 * q.val = win0_15.index t (1 : Fin 2) * 256 + q.val; omega
  | ⟨1, _⟩ => show win0_7.index t (1 : Fin 2) * 2048 + 1 * k.val = k.val; omega

theorem blk8_apply (c : Dev nD) (t : Fin cfg0.N) (q : Fin 256) (k : Fin 2048) :
    blk8 m c t (ix2 q k) = (m ((c : Thread nD τ).loc main_arg15) : S2048x2048.Idx → EReal) (ix2 (colOf t q) k) := by
  show V m c main_v8 (((cfg0.win 8).blk t).view.emb (ix2 q k)) = _
  rw [V_main_v8]
  obtain ⟨e0, e1⟩ := idx_w8 t
  refine congrArg (m ((c : Thread nD τ).loc main_arg15) : S2048x2048.Idx → EReal) (funext fun a => Fin.ext ?_)
  match a with
  | ⟨0, _⟩ => show win0_8.index t (0 : Fin 2) * 256 + 1 * q.val = win0_15.index t (1 : Fin 2) * 256 + q.val; omega
  | ⟨1, _⟩ => show win0_8.index t (1 : Fin 2) * 2048 + 1 * k.val = k.val; omega

theorem blk9_apply (c : Dev nD) (t : Fin cfg0.N) (q : Fin 256) (k : Fin 2048) :
    blk9 m c t (ix2 q k) = (m ((c : Thread nD τ).loc main_arg17) : S2048x2048.Idx → EReal) (ix2 (colOf t q) k) := by
  show V m c main_v9 (((cfg0.win 9).blk t).view.emb (ix2 q k)) = _
  rw [V_main_v9]
  obtain ⟨e0, e1⟩ := idx_w9 t
  refine congrArg (m ((c : Thread nD τ).loc main_arg17) : S2048x2048.Idx → EReal) (funext fun a => Fin.ext ?_)
  match a with
  | ⟨0, _⟩ => show win0_9.index t (0 : Fin 2) * 256 + 1 * q.val = win0_15.index t (1 : Fin 2) * 256 + q.val; omega
  | ⟨1, _⟩ => show win0_9.index t (1 : Fin 2) * 2048 + 1 * k.val = k.val; omega

theorem blk10_apply (c : Dev nD) (t : Fin cfg0.N) (q : Fin 256) :
    blk10 m c t (ix2 (0 : Fin 1) q) = @addf Ideal _ S2048 .f32 (m ((c : Thread nD τ).loc main_arg4)) (m ((c : Thread nD τ).loc main_arg6)) (ix1 (colOf t q)) := by
  show V m c main_v11 (((cfg0.win 10).blk t).view.emb (ix2 (0 : Fin 1) q)) = _
  rw [← V_main_v11_apply m c (colOf t q)]
  obtain ⟨e0, e1⟩ := idx_b10 t
  refine congrArg (V m c main_v11 : S1x2048.Idx → EReal) (funext fun a => Fin.ext ?_)
  match a with
  | ⟨0, _⟩ => show win0_10.index t (0 : Fin 2) * 1 + 1 * 0 = 0; omega
  | ⟨1, _⟩ => show win0_10.index t (1 : Fin 2) * 256 + 1 * q.val = win0_15.index t (1 : Fin 2) * 256 + q.val; omega

theorem blk11_apply (c : Dev nD) (t : Fin cfg0.N) (q : Fin 256) :
    blk11 m c t (ix2 (0 : Fin 1) q) = @addf Ideal _ S2048 .f32 (m ((c : Thread nD τ).loc main_arg8)) (m ((c : Thread nD τ).loc main_arg10)) (ix1 (colOf t q)) := by
  show V m c main_v13 (((cfg0.win 11).blk t).view.emb (ix2 (0 : Fin 1) q)) = _
  rw [← V_main_v13_apply m c (colOf t q)]
  obtain ⟨e0, e1⟩ := idx_b11 t
  refine congrArg (V m c main_v13 : S1x2048.Idx → EReal) (funext fun a => Fin.ext ?_)
  match a with
  | ⟨0, _⟩ => show win0_11.index t (0 : Fin 2) * 1 + 1 * 0 = 0; omega
  | ⟨1, _⟩ => show win0_11.index t (1 : Fin 2) * 256 + 1 * q.val = win0_15.index t (1 : Fin 2) * 256 + q.val; omega

theorem blk12_apply (c : Dev nD) (t : Fin cfg0.N) (q : Fin 256) :
    blk12 m c t (ix2 (0 : Fin 1) q) = @addf Ideal _ S2048 .f32 (m ((c : Thread nD τ).loc main_arg12)) (m ((c : Thread nD τ).loc main_arg14)) (ix1 (colOf t q)) := by
  show V m c main_v15 (((cfg0.win 12).blk t).view.emb (ix2 (0 : Fin 1) q)) = _
  rw [← V_main_v15_apply m c (colOf t q)]
  obtain ⟨e0, e1⟩ := idx_b12 t
  refine congrArg (V m c main_v15 : S1x2048.Idx → EReal) (funext fun a => Fin.ext ?_)
  match a with
  | ⟨0, _⟩ => show win0_12.index t (0 : Fin 2) * 1 + 1 * 0 = 0; omega
  | ⟨1, _⟩ => show win0_12.index t (1 : Fin 2) * 256 + 1 * q.val = win0_15.index t (1 : Fin 2) * 256 + q.val; omega

theorem blk13_apply (c : Dev nD) (t : Fin cfg0.N) (q : Fin 256) :
    blk13 m c t (ix2 (0 : Fin 1) q) = @addf Ideal _ S2048 .f32 (m ((c : Thread nD τ).loc main_arg16)) (m ((c : Thread nD τ).loc main_arg18)) (ix1 (colOf t q)) := by
  show V m c main_v17 (((cfg0.win 13).blk t).view.emb (ix2 (0 : Fin 1) q)) = _
  rw [← V_main_v17_apply m c (colOf t q)]
  obtain ⟨e0, e1⟩ := idx_b13 t
  refine congrArg (V m c main_v17 : S1x2048.Idx → EReal) (funext fun a => Fin.ext ?_)
  match a with
  | ⟨0, _⟩ => show win0_13.index t (0 : Fin 2) * 1 + 1 * 0 = 0; omega
  | ⟨1, _⟩ => show win0_13.index t (1 : Fin 2) * 256 + 1 * q.val = win0_15.index t (1 : Fin 2) * 256 + q.val; omega

theorem blk14_apply (c : Dev nD) (t : Fin cfg0.N) (p : Fin 512) (q : Fin 256) :
    blk14 m c t (ix2 p q) = (m ((c : Thread nD τ).loc main_arg2) : S8192x2048.Idx → EReal) (ix2 (rowOf t p) (colOf t q)) := by
  show V m c main_arg2 (((cfg0.win 14).blk t).view.emb (ix2 p q)) = _
  rw [V_main_arg2]
  obtain ⟨e0, e1⟩ := idx_c t
  refine congrArg (m ((c : Thread nD τ).loc main_arg2) : S8192x2048.Idx → EReal) (funext fun a => Fin.ext ?_)
  match a with
  | ⟨0, _⟩ => show win0_14.index t (0 : Fin 2) * 512 + 1 * p.val = win0_15.index t (0 : Fin 2) * 512 + p.val; omega
  | ⟨1, _⟩ => show win0_14.index t (1 : Fin 2) * 256 + 1 * q.val = win0_15.index t (1 : Fin 2) * 256 + q.val; omega

theorem act_reads (c : Dev nD) (t : Fin cfg0.N) : ActReads (rowOf t) (blk0 m c t) (blk1 m c t) (m ((c : Thread nD τ).loc main_arg0)) (m ((c : Thread nD τ).loc main_arg1)) :=
  ⟨blk0_apply m c t, blk1_apply m c t⟩
theorem gateF_reads (c : Dev nD) (t : Fin cfg0.N) : GateReads (colOf t) (blk2 m c t) (blk3 m c t) (blk10 m c t) (m ((c : Thread nD τ).loc main_arg3)) (m ((c : Thread nD τ).loc main_arg5)) (m ((c : Thread nD τ).loc main_arg4)) (m ((c : Thread nD τ).loc main_arg6)) :=
  ⟨blk2_apply m c t, blk3_apply m c t, blk10_apply m c t⟩
theorem gateI_reads (c : Dev nD) (t : Fin cfg0.N) : GateReads (colOf t) (blk4 m c t) (blk5 m c t) (blk11 m c t) (m ((c : Thread nD τ).loc main_arg7)) (m ((c : Thread nD τ).loc main_arg9)) (m ((c : Thread nD τ).loc main_arg8)) (m ((c : Thread nD τ).loc main_arg10)) :=
  ⟨blk4_apply m c t, blk5_apply m c t, blk11_apply m c t⟩
theorem gateO_reads (c : Dev nD) (t : Fin cfg0.N) : GateReads (colOf t) (blk6 m c t) (blk7 m c t) (blk12 m c t) (m ((c : Thread nD τ).loc main_arg11)) (m ((c : Thread nD τ).loc main_arg13)) (m ((c : Thread nD τ).loc main_arg12)) (m ((c : Thread nD τ).loc main_arg14)) :=
  ⟨blk6_apply m c t, blk7_apply m c t, blk12_apply m c t⟩
theorem gateC_reads (c : Dev nD) (t : Fin cfg0.N) : GateReads (colOf t) (blk8 m c t) (blk9 m c t) (blk13 m c t) (m ((c : Thread nD τ).loc main_arg15)) (m ((c : Thread nD τ).loc main_arg17)) (m ((c : Thread nD τ).loc main_arg16)) (m ((c : Thread nD τ).loc main_arg18)) :=
  ⟨blk8_apply m c t, blk9_apply m c t, blk13_apply m c t⟩

/-! ## The cell of the launch memory's arguments -/

/-- The four gates' pre-activations of core `c`'s arguments. -/
abbrev linF (c : Dev nD) : SBD.Idx → EReal := gateLin (m ((c : Thread nD τ).loc main_arg0)) (m ((c : Thread nD τ).loc main_arg1)) (m ((c : Thread nD τ).loc main_arg3)) (m ((c : Thread nD τ).loc main_arg5)) (m ((c : Thread nD τ).loc main_arg4)) (m ((c : Thread nD τ).loc main_arg6))
abbrev linI (c : Dev nD) : SBD.Idx → EReal := gateLin (m ((c : Thread nD τ).loc main_arg0)) (m ((c : Thread nD τ).loc main_arg1)) (m ((c : Thread nD τ).loc main_arg7)) (m ((c : Thread nD τ).loc main_arg9)) (m ((c : Thread nD τ).loc main_arg8)) (m ((c : Thread nD τ).loc main_arg10))
abbrev linO (c : Dev nD) : SBD.Idx → EReal := gateLin (m ((c : Thread nD τ).loc main_arg0)) (m ((c : Thread nD τ).loc main_arg1)) (m ((c : Thread nD τ).loc main_arg11)) (m ((c : Thread nD τ).loc main_arg13)) (m ((c : Thread nD τ).loc main_arg12)) (m ((c : Thread nD τ).loc main_arg14))
abbrev linC (c : Dev nD) : SBD.Idx → EReal := gateLin (m ((c : Thread nD τ).loc main_arg0)) (m ((c : Thread nD τ).loc main_arg1)) (m ((c : Thread nD τ).loc main_arg15)) (m ((c : Thread nD τ).loc main_arg17)) (m ((c : Thread nD τ).loc main_arg16)) (m ((c : Thread nD τ).loc main_arg18))

/-- The three results, as whole arrays. -/
def Gout (c : Dev nD) : SBD.Idx → EReal := outGate (linO m c)
def Ghid (c : Dev nD) : SBD.Idx → EReal := hidNew (linF m c) (linI m c) (linO m c) (linC m c) (m ((c : Thread nD τ).loc main_arg2))
def Gcell (c : Dev nD) : SBD.Idx → EReal := cellNew (linF m c) (linI m c) (linC m c) (m ((c : Thread nD τ).loc main_arg2))

/-! ## What a point writes back is its tile of the cell -/

theorem emb15 (t : Fin cfg0.N) (p : Fin 512) (q : Fin 256) :
    (((cfg0.win 15).blk t).view.emb (ix2 p q) : S8192x2048.Idx) = ix2 (rowOf t p) (colOf t q) :=
  funext fun a => Fin.ext (by
    match a with
    | ⟨0, _⟩ => show win0_15.index t (0 : Fin 2) * 512 + 1 * p.val = win0_15.index t (0 : Fin 2) * 512 + p.val; omega
    | ⟨1, _⟩ => show win0_15.index t (1 : Fin 2) * 256 + 1 * q.val = win0_15.index t (1 : Fin 2) * 256 + q.val; omega)
theorem emb16 (t : Fin cfg0.N) (p : Fin 512) (q : Fin 256) :
    (((cfg0.win 16).blk t).view.emb (ix2 p q) : S8192x2048.Idx) = ix2 (rowOf t p) (colOf t q) := by
  obtain ⟨e0, e1, -, -⟩ := idx_out t
  exact funext fun a => Fin.ext (by
    match a with
    | ⟨0, _⟩ => show win0_16.index t (0 : Fin 2) * 512 + 1 * p.val = win0_15.index t (0 : Fin 2) * 512 + p.val; omega
    | ⟨1, _⟩ => show win0_16.index t (1 : Fin 2) * 256 + 1 * q.val = win0_15.index t (1 : Fin 2) * 256 + q.val; omega)
theorem emb17 (t : Fin cfg0.N) (p : Fin 512) (q : Fin 256) :
    (((cfg0.win 17).blk t).view.emb (ix2 p q) : S8192x2048.Idx) = ix2 (rowOf t p) (colOf t q) := by
  obtain ⟨-, -, e0, e1⟩ := idx_out t
  exact funext fun a => Fin.ext (by
    match a with
    | ⟨0, _⟩ => show win0_17.index t (0 : Fin 2) * 512 + 1 * p.val = win0_15.index t (0 : Fin 2) * 512 + p.val; omega
    | ⟨1, _⟩ => show win0_17.index t (1 : Fin 2) * 256 + 1 * q.val = win0_15.index t (1 : Fin 2) * 256 + q.val; omega)

/-- Point `t` writes back to the first result its tile of the output gate. -/
theorem flushed15_eq (c : Dev nD) (t : Fin cfg0.N) :
    (dats m 0 c).flushed 15 t = ((cfg0.win 15).blk t).view.read (Elt Ideal) (Gout m c) := by
  rw [Value.flushed15]
  unfold out0_15
  rw [View.canon_unit_zero hz]
  simp only [View.ld_unit_zero (S := S512x2048) hz, View.ld_unit_zero (S := S256x2048) hz, View.ld_unit_zero (S := S1x256) hz]
  funext y
  obtain ⟨p, q, rfl⟩ : ∃ (p : Fin 512) (q : Fin 256), y = ix2 p q := ⟨y 0, y 1, eq_ix2 y⟩
  show k0_pay1 (F := Ideal) (k0_pay8 (F := Ideal) (blk0 m c t) (blk6 m c t)) (k0_pay9 (F := Ideal) (blk1 m c t) (blk7 m c t)) (blk12 m c t) (ix2 p q)
    = Gout m c (((cfg0.win 15).blk t).view.emb (ix2 p q))
  rw [emb15 t p q]
  exact tile_out (act_reads m c t) (gateO_reads m c t) p q

/-- Point `t` writes back to the second result its tile of the new hidden state. -/
theorem flushed16_eq (c : Dev nD) (t : Fin cfg0.N) :
    (dats m 0 c).flushed 16 t = ((cfg0.win 16).blk t).view.read (Elt Ideal) (Ghid m c) := by
  rw [Value.flushed16]
  unfold out0_16
  rw [View.canon_unit_zero hz]
  simp only [View.ld_unit_zero (S := S512x2048) hz, View.ld_unit_zero (S := S256x2048) hz, View.ld_unit_zero (S := S1x256) hz, View.ld_unit_zero (S := S512x256) hz]
  funext y
  obtain ⟨p, q, rfl⟩ : ∃ (p : Fin 512) (q : Fin 256), y = ix2 p q := ⟨y 0, y 1, eq_ix2 y⟩
  show k0_pay3 (F := Ideal) (k0_pay4 (F := Ideal) (blk0 m c t)) (k0_pay5 (F := Ideal) (blk1 m c t))
      (k0_pay6 (F := Ideal) (blk0 m c t) (blk1 m c t) (blk2 m c t) (blk3 m c t) (blk10 m c t))
      (k0_pay7 (F := Ideal) (blk0 m c t) (blk1 m c t) (blk4 m c t) (blk5 m c t) (blk11 m c t))
      (k0_pay8 (F := Ideal) (blk0 m c t) (blk6 m c t)) (k0_pay9 (F := Ideal) (blk1 m c t) (blk7 m c t)) (blk12 m c t)
      (blk8 m c t) (blk9 m c t) (blk13 m c t) (blk14 m c t) (ix2 p q)
    = Ghid m c (((cfg0.win 16).blk t).view.emb (ix2 p q))
  rw [emb16 t p q]
  exact tile_hid (act_reads m c t) (gateF_reads m c t) (gateI_reads m c t) (gateO_reads m c t) (gateC_reads m c t) (blk14_apply m c t) p q

/-- Point `t` writes back to the third result its tile of the new cell state. -/
theorem flushed17_eq (c : Dev nD) (t : Fin cfg0.N) :
    (dats m 0 c).flushed 17 t = ((cfg0.win 17).blk t).view.read (Elt Ideal) (Gcell m c) := by
  rw [Value.flushed17]
  unfold out0_17
  rw [View.canon_unit_zero hz]
  simp only [View.ld_unit_zero (S := S512x2048) hz, View.ld_unit_zero (S := S256x2048) hz, View.ld_unit_zero (S := S1x256) hz, View.ld_unit_zero (S := S512x256) hz]
  funext y
  obtain ⟨p, q, rfl⟩ : ∃ (p : Fin 512) (q : Fin 256), y = ix2 p q := ⟨y 0, y 1, eq_ix2 y⟩
  show k0_pay2 (F := Ideal) (k0_pay4 (F := Ideal) (blk0 m c t)) (k0_pay5 (F := Ideal) (blk1 m c t))
      (k0_pay6 (F := Ideal) (blk0 m c t) (blk1 m c t) (blk2 m c t) (blk3 m c t) (blk10 m c t))
      (k0_pay7 (F := Ideal) (blk0 m c t) (blk1 m c t) (blk4 m c t) (blk5 m c t) (blk11 m c t))
      (blk8 m c t) (blk9 m c t) (blk13 m c t) (blk14 m c t) (ix2 p q)
    = Gcell m c (((cfg0.win 17).blk t).view.emb (ix2 p q))
  rw [emb17 t p q]
  exact tile_cell (act_reads m c t) (gateF_reads m c t) (gateI_reads m c t) (gateC_reads m c t) (blk14_apply m c t) p q

/-! ## The tiles cover each result -/

/-- An index of the array is in point `t`'s block of output window 15 iff each coordinate is in the block's range. -/
theorem mem_blk15 (t : Fin cfg0.N) (i : S8192x2048.Idx) :
    i ∈ ((cfg0.win 15).blk t).view.set ↔ ∀ a : Fin 2, win0_15.index t a * S512x256.size a ≤ (i a).val ∧ (i a).val < win0_15.index t a * S512x256.size a + S512x256.size a := by
  show i ∈ ((View.whole main_v18_0).slice (win0_15.rect t)).set ↔ _
  rw [View.set_slice_whole, Rect.mem_set_unit]
  exact Iff.rfl

/-- Every one of the 16 x 8 blocks is some point's. -/
theorem idx_onto15 : ∀ (q0 : Fin 16) (q1 : Fin 8), ∃ t : Fin cfg0.N, win0_15.index t = ![q0.val, q1.val] :=
  (by decide +kernel : ∀ (q0 : Fin 16) (q1 : Fin 8), ∃ t : Fin grid0.N, win0_15.index t = ![q0.val, q1.val])

/-- The blocks tile the array: entry `(r, j)` lies in the block of the point with block row `r / 512` and block column `j / 256`. -/
theorem cover15 (i : S8192x2048.Idx) : ∃ t : Fin cfg0.N, (cfg0.win 15).flush t = true ∧ i ∈ ((cfg0.win 15).blk t).view.set := by
  have hi0 : (i 0).val < 8192 := (i 0).isLt
  have hi1 : (i 1).val < 2048 := (i 1).isLt
  obtain ⟨t, ht⟩ := idx_onto15 ⟨(i 0).val / 512, by omega⟩ ⟨(i 1).val / 256, by omega⟩
  have q0 : win0_15.index t (0 : Fin 2) = (i 0).val / 512 := congrFun ht 0
  have q1 : win0_15.index t (1 : Fin 2) = (i 1).val / 256 := congrFun ht 1
  refine ⟨t, flush0_15 t, ?_⟩
  rw [mem_blk15]
  intro a
  match a with
  | ⟨0, _⟩ => show win0_15.index t (0 : Fin 2) * 512 ≤ (i 0).val ∧ (i 0).val < win0_15.index t (0 : Fin 2) * 512 + 512; omega
  | ⟨1, _⟩ => show win0_15.index t (1 : Fin 2) * 256 ≤ (i 1).val ∧ (i 1).val < win0_15.index t (1 : Fin 2) * 256 + 256; omega

/-- An index of the array is in point `t`'s block of output window 16 iff each coordinate is in the block's range. -/
theorem mem_blk16 (t : Fin cfg0.N) (i : S8192x2048.Idx) :
    i ∈ ((cfg0.win 16).blk t).view.set ↔ ∀ a : Fin 2, win0_16.index t a * S512x256.size a ≤ (i a).val ∧ (i a).val < win0_16.index t a * S512x256.size a + S512x256.size a := by
  show i ∈ ((View.whole main_v18_1).slice (win0_16.rect t)).set ↔ _
  rw [View.set_slice_whole, Rect.mem_set_unit]
  exact Iff.rfl

/-- Every one of the 16 x 8 blocks is some point's. -/
theorem idx_onto16 : ∀ (q0 : Fin 16) (q1 : Fin 8), ∃ t : Fin cfg0.N, win0_16.index t = ![q0.val, q1.val] :=
  (by decide +kernel : ∀ (q0 : Fin 16) (q1 : Fin 8), ∃ t : Fin grid0.N, win0_16.index t = ![q0.val, q1.val])

/-- The blocks tile the array: entry `(r, j)` lies in the block of the point with block row `r / 512` and block column `j / 256`. -/
theorem cover16 (i : S8192x2048.Idx) : ∃ t : Fin cfg0.N, (cfg0.win 16).flush t = true ∧ i ∈ ((cfg0.win 16).blk t).view.set := by
  have hi0 : (i 0).val < 8192 := (i 0).isLt
  have hi1 : (i 1).val < 2048 := (i 1).isLt
  obtain ⟨t, ht⟩ := idx_onto16 ⟨(i 0).val / 512, by omega⟩ ⟨(i 1).val / 256, by omega⟩
  have q0 : win0_16.index t (0 : Fin 2) = (i 0).val / 512 := congrFun ht 0
  have q1 : win0_16.index t (1 : Fin 2) = (i 1).val / 256 := congrFun ht 1
  refine ⟨t, flush0_16 t, ?_⟩
  rw [mem_blk16]
  intro a
  match a with
  | ⟨0, _⟩ => show win0_16.index t (0 : Fin 2) * 512 ≤ (i 0).val ∧ (i 0).val < win0_16.index t (0 : Fin 2) * 512 + 512; omega
  | ⟨1, _⟩ => show win0_16.index t (1 : Fin 2) * 256 ≤ (i 1).val ∧ (i 1).val < win0_16.index t (1 : Fin 2) * 256 + 256; omega

/-- An index of the array is in point `t`'s block of output window 17 iff each coordinate is in the block's range. -/
theorem mem_blk17 (t : Fin cfg0.N) (i : S8192x2048.Idx) :
    i ∈ ((cfg0.win 17).blk t).view.set ↔ ∀ a : Fin 2, win0_17.index t a * S512x256.size a ≤ (i a).val ∧ (i a).val < win0_17.index t a * S512x256.size a + S512x256.size a := by
  show i ∈ ((View.whole main_v18_2).slice (win0_17.rect t)).set ↔ _
  rw [View.set_slice_whole, Rect.mem_set_unit]
  exact Iff.rfl

/-- Every one of the 16 x 8 blocks is some point's. -/
theorem idx_onto17 : ∀ (q0 : Fin 16) (q1 : Fin 8), ∃ t : Fin cfg0.N, win0_17.index t = ![q0.val, q1.val] :=
  (by decide +kernel : ∀ (q0 : Fin 16) (q1 : Fin 8), ∃ t : Fin grid0.N, win0_17.index t = ![q0.val, q1.val])

/-- The blocks tile the array: entry `(r, j)` lies in the block of the point with block row `r / 512` and block column `j / 256`. -/
theorem cover17 (i : S8192x2048.Idx) : ∃ t : Fin cfg0.N, (cfg0.win 17).flush t = true ∧ i ∈ ((cfg0.win 17).blk t).view.set := by
  have hi0 : (i 0).val < 8192 := (i 0).isLt
  have hi1 : (i 1).val < 2048 := (i 1).isLt
  obtain ⟨t, ht⟩ := idx_onto17 ⟨(i 0).val / 512, by omega⟩ ⟨(i 1).val / 256, by omega⟩
  have q0 : win0_17.index t (0 : Fin 2) = (i 0).val / 512 := congrFun ht 0
  have q1 : win0_17.index t (1 : Fin 2) = (i 1).val / 256 := congrFun ht 1
  refine ⟨t, flush0_17 t, ?_⟩
  rw [mem_blk17]
  intro a
  match a with
  | ⟨0, _⟩ => show win0_17.index t (0 : Fin 2) * 512 ≤ (i 0).val ∧ (i 0).val < win0_17.index t (0 : Fin 2) * 512 + 512; omega
  | ⟨1, _⟩ => show win0_17.index t (1 : Fin 2) * 256 ≤ (i 1).val ∧ (i 1).val < win0_17.index t (1 : Fin 2) * 256 + 256; omega

/-! ## The three arrays after the run -/

theorem final15 (c : Dev nD) : (dats m 0 c).arrAt 15 cfg0.N = Gout m c :=
  (dats m 0 c).arrAt_eq_of_cover 15 (Gout m c) (fun t _ => flushed15_eq m c t) cover15
theorem final16 (c : Dev nD) : (dats m 0 c).arrAt 16 cfg0.N = Ghid m c :=
  (dats m 0 c).arrAt_eq_of_cover 16 (Ghid m c) (fun t _ => flushed16_eq m c t) cover16
theorem final17 (c : Dev nD) : (dats m 0 c).arrAt 17 cfg0.N = Gcell m c :=
  (dats m 0 c).arrAt_eq_of_cover 17 (Gcell m c) (fun t _ => flushed17_eq m c t) cover17

end Cert.KernelIdeal.Arr

end
-- ==== Proof.RefIs.lean ====
/-
  The reference, read at an entry, is the cell of the specification.

  The reference stacks the four gates' weight matrices into one 8192 x 2048 matrix (forget, input, output,
  candidate, in that order) and the biases into one vector of 8192, multiplies the activations by the stack's
  transpose, and cuts the 8192 columns of the result into the four gates. Column `g * 2048 + j` of the product
  therefore pairs row `r` of the activations with row `j` of gate `g`'s own matrix, and adds entry `j` of gate
  `g`'s own bias. The reference adds in the order (x-projection + x-bias) + h-projection + h-bias; regrouping the
  four summands (addition on the extended reals is commutative and associative) gives the specification's form.
  Its logistic function is spelled one over one plus the exponential of the negation, which is the logistic function
  of the extended reals by definition.
-/
import proofs.«173562_j8804682957036_1_alg».proof.Proof.Gen.ReferenceIdeal.Read
import proofs.«173562_j8804682957036_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Cell

open Cert.ReferenceIdeal Cert.ReferenceIdeal.Gen Cert.ReferenceIdeal.Read Idealize.ShloMosaic Idealize.ShloMosaic.ValueIdx
open Cert.LstmSpec

/-! ## The stacked matrices and biases read at a row -/

/-- Row `g * 2048 + j` of four square matrices stacked along their rows is row `j` of the `g`-th: piece by piece,
    the rows before piece `g` being `g * 2048`. -/

theorem stackW_piece0 (a0 a1 a2 a3 : (⟨S2048x2048, .f32⟩ : BufTy).Contents (Elt Ideal)) (j k : Fin 2048) (n : Fin 8192) (hn : n.val = 0 + j.val) :
    concatenate S8192x2048 0 [⟨S2048x2048, a0⟩, ⟨S2048x2048, a1⟩, ⟨S2048x2048, a2⟩, ⟨S2048x2048, a3⟩] concatenates_S2048x2048_S2048x2048_S2048x2048_S2048x2048_S8192x2048_d0 (ix2 n k)
      = a0 (ix2 j k) := by
  have hi : ∀ b : Fin S2048x2048.rank, b.cast (rfl : S2048x2048.rank = S8192x2048.rank) ≠ (0 : Fin S8192x2048.rank) →
      ((ix2 j k : S2048x2048.Idx) b).val = ((ix2 n k : S8192x2048.Idx) (b.cast rfl)).val := fun b hb => by
    match b with
    | ⟨0, _⟩ => exact absurd rfl hb
    | ⟨1, _⟩ => rfl
  have hlen : 0 < ([⟨S2048x2048, a0⟩, ⟨S2048x2048, a1⟩, ⟨S2048x2048, a2⟩, ⟨S2048x2048, a3⟩] : List ((s : Shape) × (s.Idx → EReal))).length := by show 0 < 4; omega
  have hxk : ([⟨S2048x2048, a0⟩, ⟨S2048x2048, a1⟩, ⟨S2048x2048, a2⟩, ⟨S2048x2048, a3⟩] : List ((s : Shape) × (s.Idx → EReal)))[0] = ⟨S2048x2048, a0⟩ := rfl
  have hpre : (((([⟨S2048x2048, a0⟩, ⟨S2048x2048, a1⟩, ⟨S2048x2048, a2⟩, ⟨S2048x2048, a3⟩] : List ((s : Shape) × (s.Idx → EReal))).take 0).map (·.1)).map fun s => if h : s.rank = S8192x2048.rank then s.size ((0 : Fin S8192x2048.rank).cast h.symm) else 0).sum = 0 := rfl
  exact concatenate_apply_piece 0 _ _ (ix2 n k) 0 hlen S2048x2048 a0 hxk rfl 0 hpre (ix2 j k) hi (by show 0 + j.val = n.val; omega)

theorem stackW_piece1 (a0 a1 a2 a3 : (⟨S2048x2048, .f32⟩ : BufTy).Contents (Elt Ideal)) (j k : Fin 2048) (n : Fin 8192) (hn : n.val = 2048 + j.val) :
    concatenate S8192x2048 0 [⟨S2048x2048, a0⟩, ⟨S2048x2048, a1⟩, ⟨S2048x2048, a2⟩, ⟨S2048x2048, a3⟩] concatenates_S2048x2048_S2048x2048_S2048x2048_S2048x2048_S8192x2048_d0 (ix2 n k)
      = a1 (ix2 j k) := by
  have hi : ∀ b : Fin S2048x2048.rank, b.cast (rfl : S2048x2048.rank = S8192x2048.rank) ≠ (0 : Fin S8192x2048.rank) →
      ((ix2 j k : S2048x2048.Idx) b).val = ((ix2 n k : S8192x2048.Idx) (b.cast rfl)).val := fun b hb => by
    match b with
    | ⟨0, _⟩ => exact absurd rfl hb
    | ⟨1, _⟩ => rfl
  have hlen : 1 < ([⟨S2048x2048, a0⟩, ⟨S2048x2048, a1⟩, ⟨S2048x2048, a2⟩, ⟨S2048x2048, a3⟩] : List ((s : Shape) × (s.Idx → EReal))).length := by show 1 < 4; omega
  have hxk : ([⟨S2048x2048, a0⟩, ⟨S2048x2048, a1⟩, ⟨S2048x2048, a2⟩, ⟨S2048x2048, a3⟩] : List ((s : Shape) × (s.Idx → EReal)))[1] = ⟨S2048x2048, a1⟩ := rfl
  have hpre : (((([⟨S2048x2048, a0⟩, ⟨S2048x2048, a1⟩, ⟨S2048x2048, a2⟩, ⟨S2048x2048, a3⟩] : List ((s : Shape) × (s.Idx → EReal))).take 1).map (·.1)).map fun s => if h : s.rank = S8192x2048.rank then s.size ((0 : Fin S8192x2048.rank).cast h.symm) else 0).sum = 2048 := rfl
  exact concatenate_apply_piece 0 _ _ (ix2 n k) 1 hlen S2048x2048 a1 hxk rfl 2048 hpre (ix2 j k) hi (by show 2048 + j.val = n.val; omega)

theorem stackW_piece2 (a0 a1 a2 a3 : (⟨S2048x2048, .f32⟩ : BufTy).Contents (Elt Ideal)) (j k : Fin 2048) (n : Fin 8192) (hn : n.val = 4096 + j.val) :
    concatenate S8192x2048 0 [⟨S2048x2048, a0⟩, ⟨S2048x2048, a1⟩, ⟨S2048x2048, a2⟩, ⟨S2048x2048, a3⟩] concatenates_S2048x2048_S2048x2048_S2048x2048_S2048x2048_S8192x2048_d0 (ix2 n k)
      = a2 (ix2 j k) := by
  have hi : ∀ b : Fin S2048x2048.rank, b.cast (rfl : S2048x2048.rank = S8192x2048.rank) ≠ (0 : Fin S8192x2048.rank) →
      ((ix2 j k : S2048x2048.Idx) b).val = ((ix2 n k : S8192x2048.Idx) (b.cast rfl)).val := fun b hb => by
    match b with
    | ⟨0, _⟩ => exact absurd rfl hb
    | ⟨1, _⟩ => rfl
  have hlen : 2 < ([⟨S2048x2048, a0⟩, ⟨S2048x2048, a1⟩, ⟨S2048x2048, a2⟩, ⟨S2048x2048, a3⟩] : List ((s : Shape) × (s.Idx → EReal))).length := by show 2 < 4; omega
  have hxk : ([⟨S2048x2048, a0⟩, ⟨S2048x2048, a1⟩, ⟨S2048x2048, a2⟩, ⟨S2048x2048, a3⟩] : List ((s : Shape) × (s.Idx → EReal)))[2] = ⟨S2048x2048, a2⟩ := rfl
  have hpre : (((([⟨S2048x2048, a0⟩, ⟨S2048x2048, a1⟩, ⟨S2048x2048, a2⟩, ⟨S2048x2048, a3⟩] : List ((s : Shape) × (s.Idx → EReal))).take 2).map (·.1)).map fun s => if h : s.rank = S8192x2048.rank then s.size ((0 : Fin S8192x2048.rank).cast h.symm) else 0).sum = 4096 := rfl
  exact concatenate_apply_piece 0 _ _ (ix2 n k) 2 hlen S2048x2048 a2 hxk rfl 4096 hpre (ix2 j k) hi (by show 4096 + j.val = n.val; omega)

theorem stackW_piece3 (a0 a1 a2 a3 : (⟨S2048x2048, .f32⟩ : BufTy).Contents (Elt Ideal)) (j k : Fin 2048) (n : Fin 8192) (hn : n.val = 6144 + j.val) :
    concatenate S8192x2048 0 [⟨S2048x2048, a0⟩, ⟨S2048x2048, a1⟩, ⟨S2048x2048, a2⟩, ⟨S2048x2048, a3⟩] concatenates_S2048x2048_S2048x2048_S2048x2048_S2048x2048_S8192x2048_d0 (ix2 n k)
      = a3 (ix2 j k) := by
  have hi : ∀ b : Fin S2048x2048.rank, b.cast (rfl : S2048x2048.rank = S8192x2048.rank) ≠ (0 : Fin S8192x2048.rank) →
      ((ix2 j k : S2048x2048.Idx) b).val = ((ix2 n k : S8192x2048.Idx) (b.cast rfl)).val := fun b hb => by
    match b with
    | ⟨0, _⟩ => exact absurd rfl hb
    | ⟨1, _⟩ => rfl
  have hlen : 3 < ([⟨S2048x2048, a0⟩, ⟨S2048x2048, a1⟩, ⟨S2048x2048, a2⟩, ⟨S2048x2048, a3⟩] : List ((s : Shape) × (s.Idx → EReal))).length := by show 3 < 4; omega
  have hxk : ([⟨S2048x2048, a0⟩, ⟨S2048x2048, a1⟩, ⟨S2048x2048, a2⟩, ⟨S2048x2048, a3⟩] : List ((s : Shape) × (s.Idx → EReal)))[3] = ⟨S2048x2048, a3⟩ := rfl
  have hpre : (((([⟨S2048x2048, a0⟩, ⟨S2048x2048, a1⟩, ⟨S2048x2048, a2⟩, ⟨S2048x2048, a3⟩] : List ((s : Shape) × (s.Idx → EReal))).take 3).map (·.1)).map fun s => if h : s.rank = S8192x2048.rank then s.size ((0 : Fin S8192x2048.rank).cast h.symm) else 0).sum = 6144 := rfl
  exact concatenate_apply_piece 0 _ _ (ix2 n k) 3 hlen S2048x2048 a3 hxk rfl 6144 hpre (ix2 j k) hi (by show 6144 + j.val = n.val; omega)

/-- Entry `g * 2048 + j` of four vectors laid end to end is entry `j` of the `g`-th. -/

theorem stackB_piece0 (a0 a1 a2 a3 : (⟨S2048, .f32⟩ : BufTy).Contents (Elt Ideal)) (j : Fin 2048) (n : Fin 8192) (hn : n.val = 0 + j.val) :
    concatenate S8192 0 [⟨S2048, a0⟩, ⟨S2048, a1⟩, ⟨S2048, a2⟩, ⟨S2048, a3⟩] concatenates_S2048_S2048_S2048_S2048_S8192_d0 (ix1 n)
      = a0 (ix1 j) := by
  have hi : ∀ b : Fin S2048.rank, b.cast (rfl : S2048.rank = S8192.rank) ≠ (0 : Fin S8192.rank) →
      ((ix1 j : S2048.Idx) b).val = ((ix1 n : S8192.Idx) (b.cast rfl)).val := fun b hb => by
    match b with
    | ⟨0, _⟩ => exact absurd rfl hb
  have hlen : 0 < ([⟨S2048, a0⟩, ⟨S2048, a1⟩, ⟨S2048, a2⟩, ⟨S2048, a3⟩] : List ((s : Shape) × (s.Idx → EReal))).length := by show 0 < 4; omega
  have hxk : ([⟨S2048, a0⟩, ⟨S2048, a1⟩, ⟨S2048, a2⟩, ⟨S2048, a3⟩] : List ((s : Shape) × (s.Idx → EReal)))[0] = ⟨S2048, a0⟩ := rfl
  have hpre : (((([⟨S2048, a0⟩, ⟨S2048, a1⟩, ⟨S2048, a2⟩, ⟨S2048, a3⟩] : List ((s : Shape) × (s.Idx → EReal))).take 0).map (·.1)).map fun s => if h : s.rank = S8192.rank then s.size ((0 : Fin S8192.rank).cast h.symm) else 0).sum = 0 := rfl
  exact concatenate_apply_piece 0 _ _ (ix1 n) 0 hlen S2048 a0 hxk rfl 0 hpre (ix1 j) hi (by show 0 + j.val = n.val; omega)

theorem stackB_piece1 (a0 a1 a2 a3 : (⟨S2048, .f32⟩ : BufTy).Contents (Elt Ideal)) (j : Fin 2048) (n : Fin 8192) (hn : n.val = 2048 + j.val) :
    concatenate S8192 0 [⟨S2048, a0⟩, ⟨S2048, a1⟩, ⟨S2048, a2⟩, ⟨S2048, a3⟩] concatenates_S2048_S2048_S2048_S2048_S8192_d0 (ix1 n)
      = a1 (ix1 j) := by
  have hi : ∀ b : Fin S2048.rank, b.cast (rfl : S2048.rank = S8192.rank) ≠ (0 : Fin S8192.rank) →
      ((ix1 j : S2048.Idx) b).val = ((ix1 n : S8192.Idx) (b.cast rfl)).val := fun b hb => by
    match b with
    | ⟨0, _⟩ => exact absurd rfl hb
  have hlen : 1 < ([⟨S2048, a0⟩, ⟨S2048, a1⟩, ⟨S2048, a2⟩, ⟨S2048, a3⟩] : List ((s : Shape) × (s.Idx → EReal))).length := by show 1 < 4; omega
  have hxk : ([⟨S2048, a0⟩, ⟨S2048, a1⟩, ⟨S2048, a2⟩, ⟨S2048, a3⟩] : List ((s : Shape) × (s.Idx → EReal)))[1] = ⟨S2048, a1⟩ := rfl
  have hpre : (((([⟨S2048, a0⟩, ⟨S2048, a1⟩, ⟨S2048, a2⟩, ⟨S2048, a3⟩] : List ((s : Shape) × (s.Idx → EReal))).take 1).map (·.1)).map fun s => if h : s.rank = S8192.rank then s.size ((0 : Fin S8192.rank).cast h.symm) else 0).sum = 2048 := rfl
  exact concatenate_apply_piece 0 _ _ (ix1 n) 1 hlen S2048 a1 hxk rfl 2048 hpre (ix1 j) hi (by show 2048 + j.val = n.val; omega)

theorem stackB_piece2 (a0 a1 a2 a3 : (⟨S2048, .f32⟩ : BufTy).Contents (Elt Ideal)) (j : Fin 2048) (n : Fin 8192) (hn : n.val = 4096 + j.val) :
    concatenate S8192 0 [⟨S2048, a0⟩, ⟨S2048, a1⟩, ⟨S2048, a2⟩, ⟨S2048, a3⟩] concatenates_S2048_S2048_S2048_S2048_S8192_d0 (ix1 n)
      = a2 (ix1 j) := by
  have hi : ∀ b : Fin S2048.rank, b.cast (rfl : S2048.rank = S8192.rank) ≠ (0 : Fin S8192.rank) →
      ((ix1 j : S2048.Idx) b).val = ((ix1 n : S8192.Idx) (b.cast rfl)).val := fun b hb => by
    match b with
    | ⟨0, _⟩ => exact absurd rfl hb
  have hlen : 2 < ([⟨S2048, a0⟩, ⟨S2048, a1⟩, ⟨S2048, a2⟩, ⟨S2048, a3⟩] : List ((s : Shape) × (s.Idx → EReal))).length := by show 2 < 4; omega
  have hxk : ([⟨S2048, a0⟩, ⟨S2048, a1⟩, ⟨S2048, a2⟩, ⟨S2048, a3⟩] : List ((s : Shape) × (s.Idx → EReal)))[2] = ⟨S2048, a2⟩ := rfl
  have hpre : (((([⟨S2048, a0⟩, ⟨S2048, a1⟩, ⟨S2048, a2⟩, ⟨S2048, a3⟩] : List ((s : Shape) × (s.Idx → EReal))).take 2).map (·.1)).map fun s => if h : s.rank = S8192.rank then s.size ((0 : Fin S8192.rank).cast h.symm) else 0).sum = 4096 := rfl
  exact concatenate_apply_piece 0 _ _ (ix1 n) 2 hlen S2048 a2 hxk rfl 4096 hpre (ix1 j) hi (by show 4096 + j.val = n.val; omega)

theorem stackB_piece3 (a0 a1 a2 a3 : (⟨S2048, .f32⟩ : BufTy).Contents (Elt Ideal)) (j : Fin 2048) (n : Fin 8192) (hn : n.val = 6144 + j.val) :
    concatenate S8192 0 [⟨S2048, a0⟩, ⟨S2048, a1⟩, ⟨S2048, a2⟩, ⟨S2048, a3⟩] concatenates_S2048_S2048_S2048_S2048_S8192_d0 (ix1 n)
      = a3 (ix1 j) := by
  have hi : ∀ b : Fin S2048.rank, b.cast (rfl : S2048.rank = S8192.rank) ≠ (0 : Fin S8192.rank) →
      ((ix1 j : S2048.Idx) b).val = ((ix1 n : S8192.Idx) (b.cast rfl)).val := fun b hb => by
    match b with
    | ⟨0, _⟩ => exact absurd rfl hb
  have hlen : 3 < ([⟨S2048, a0⟩, ⟨S2048, a1⟩, ⟨S2048, a2⟩, ⟨S2048, a3⟩] : List ((s : Shape) × (s.Idx → EReal))).length := by show 3 < 4; omega
  have hxk : ([⟨S2048, a0⟩, ⟨S2048, a1⟩, ⟨S2048, a2⟩, ⟨S2048, a3⟩] : List ((s : Shape) × (s.Idx → EReal)))[3] = ⟨S2048, a3⟩ := rfl
  have hpre : (((([⟨S2048, a0⟩, ⟨S2048, a1⟩, ⟨S2048, a2⟩, ⟨S2048, a3⟩] : List ((s : Shape) × (s.Idx → EReal))).take 3).map (·.1)).map fun s => if h : s.rank = S8192.rank then s.size ((0 : Fin S8192.rank).cast h.symm) else 0).sum = 6144 := rfl
  exact concatenate_apply_piece 0 _ _ (ix1 n) 3 hlen S2048 a3 hxk rfl 6144 hpre (ix1 j) hi (by show 6144 + j.val = n.val; omega)

variable (x0 x1 x2 : (⟨S8192x2048, .f32⟩ : BufTy).Contents (Elt Ideal)) (x3 x5 x7 x9 x11 x13 x15 x17 : (⟨S2048x2048, .f32⟩ : BufTy).Contents (Elt Ideal)) (x4 x6 x8 x10 x12 x14 x16 x18 : (⟨S2048, .f32⟩ : BufTy).Contents (Elt Ideal))

/-! ## The four gates' pre-activations, side by side in 8192 columns -/

/-- Column `n` of the reference's stacked pre-activation, at row `r`, when row `n` of the two stacks is row `j` of a
    gate's two matrices and entry `n` of the two stacked biases entry `j` of the gate's two biases: the gate's affine
    form at `(r, j)`. The reference adds projection, bias, projection, bias in that order; the specification adds the
    two projections and then the two biases: the same four summands. -/
theorem lin_at (W Wh : (⟨S2048x2048, .f32⟩ : BufTy).Contents (Elt Ideal)) (bx bh : (⟨S2048, .f32⟩ : BufTy).Contents (Elt Ideal)) (r : Fin 8192) (j : Fin 2048) (n : Fin 8192)
    (hW : ∀ k : Fin 2048, val_main_v0 (F := Ideal) x3 x7 x11 x15 (ix2 n k) = W (ix2 j k))
    (hWh : ∀ k : Fin 2048, val_main_v1 (F := Ideal) x5 x9 x13 x17 (ix2 n k) = Wh (ix2 j k))
    (hbx : val_main_v2 (F := Ideal) x4 x8 x12 x16 (ix1 n) = bx (ix1 j))
    (hbh : val_main_v3 (F := Ideal) x6 x10 x14 x18 (ix1 n) = bh (ix1 j)) :
    val_main_v14 (F := Ideal) x0 x1 x3 x4 x5 x6 x7 x8 x9 x10 x11 x12 x13 x14 x15 x16 x17 x18 (ix2 r n) = gateLin x0 x1 W Wh bx bh (ix2 r j) := by
  rw [val_main_v14_apply, val_main_v11_apply, val_main_v8_apply, val_main_v5_apply, val_main_v10_apply,
    val_main_v7_apply, val_main_v6_apply, val_main_v13_apply, val_main_v12_apply]
  simp only [val_main_v4_apply, val_main_v9_apply]
  have e4 : ∀ k : Fin 2048, idx_main_v4 (ridx_main_v5 (ix2 r n : S8192x8192.Idx) k) = (ix2 n k : S8192x2048.Idx) := fun k =>
    funext fun a => Fin.ext (by match a with | ⟨0, _⟩ => rfl | ⟨1, _⟩ => rfl)
  have e9 : ∀ k : Fin 2048, idx_main_v9 (ridx_main_v10 (ix2 r n : S8192x8192.Idx) k) = (ix2 n k : S8192x2048.Idx) := fun k =>
    funext fun a => Fin.ext (by match a with | ⟨0, _⟩ => rfl | ⟨1, _⟩ => rfl)
  have e6 : idx_main_v6 (idx_main_v7 (ix2 r n : S8192x8192.Idx)) = (ix1 n : S8192.Idx) :=
    funext fun a => Fin.ext (by match a with | ⟨0, _⟩ => rfl)
  have e12 : idx_main_v12 (idx_main_v13 (ix2 r n : S8192x8192.Idx)) = (ix1 n : S8192.Idx) :=
    funext fun a => Fin.ext (by match a with | ⟨0, _⟩ => rfl)
  have eL5 : ∀ k : Fin 2048, lidx_main_v5 (ix2 r n : S8192x8192.Idx) k = (ix2 r k : S8192x2048.Idx) := fun k =>
    funext fun a => Fin.ext (by match a with | ⟨0, _⟩ => rfl | ⟨1, _⟩ => rfl)
  have eL10 : ∀ k : Fin 2048, lidx_main_v10 (ix2 r n : S8192x8192.Idx) k = (ix2 r k : S8192x2048.Idx) := fun k =>
    funext fun a => Fin.ext (by match a with | ⟨0, _⟩ => rfl | ⟨1, _⟩ => rfl)
  simp only [e4, e9, e6, e12, eL5, eL10, hW, hWh, hbx, hbh]
  exact lin_regroup _ _ _ _

/-- Gate `f` (columns 0 to 2047 of the stack): its own matrices and biases. -/
theorem lin_f (r : Fin 8192) (j : Fin 2048) (n : Fin 8192) (hn : n.val = 0 + j.val) :
    val_main_v14 (F := Ideal) x0 x1 x3 x4 x5 x6 x7 x8 x9 x10 x11 x12 x13 x14 x15 x16 x17 x18 (ix2 r n) = gateLin x0 x1 x3 x5 x4 x6 (ix2 r j) :=
  lin_at x0 x1 x3 x5 x7 x9 x11 x13 x15 x17 x4 x6 x8 x10 x12 x14 x16 x18 x3 x5 x4 x6 r j n
    (fun k => stackW_piece0 x3 x7 x11 x15 j k n hn) (fun k => stackW_piece0 x5 x9 x13 x17 j k n hn)
    (stackB_piece0 x4 x8 x12 x16 j n hn) (stackB_piece0 x6 x10 x14 x18 j n hn)

/-- Gate `i` (columns 2048 to 4095 of the stack): its own matrices and biases. -/
theorem lin_i (r : Fin 8192) (j : Fin 2048) (n : Fin 8192) (hn : n.val = 2048 + j.val) :
    val_main_v14 (F := Ideal) x0 x1 x3 x4 x5 x6 x7 x8 x9 x10 x11 x12 x13 x14 x15 x16 x17 x18 (ix2 r n) = gateLin x0 x1 x7 x9 x8 x10 (ix2 r j) :=
  lin_at x0 x1 x3 x5 x7 x9 x11 x13 x15 x17 x4 x6 x8 x10 x12 x14 x16 x18 x7 x9 x8 x10 r j n
    (fun k => stackW_piece1 x3 x7 x11 x15 j k n hn) (fun k => stackW_piece1 x5 x9 x13 x17 j k n hn)
    (stackB_piece1 x4 x8 x12 x16 j n hn) (stackB_piece1 x6 x10 x14 x18 j n hn)

/-- Gate `o` (columns 4096 to 6143 of the stack): its own matrices and biases. -/
theorem lin_o (r : Fin 8192) (j : Fin 2048) (n : Fin 8192) (hn : n.val = 4096 + j.val) :
    val_main_v14 (F := Ideal) x0 x1 x3 x4 x5 x6 x7 x8 x9 x10 x11 x12 x13 x14 x15 x16 x17 x18 (ix2 r n) = gateLin x0 x1 x11 x13 x12 x14 (ix2 r j) :=
  lin_at x0 x1 x3 x5 x7 x9 x11 x13 x15 x17 x4 x6 x8 x10 x12 x14 x16 x18 x11 x13 x12 x14 r j n
    (fun k => stackW_piece2 x3 x7 x11 x15 j k n hn) (fun k => stackW_piece2 x5 x9 x13 x17 j k n hn)
    (stackB_piece2 x4 x8 x12 x16 j n hn) (stackB_piece2 x6 x10 x14 x18 j n hn)

/-- Gate `c` (columns 6144 to 8191 of the stack): its own matrices and biases. -/
theorem lin_c (r : Fin 8192) (j : Fin 2048) (n : Fin 8192) (hn : n.val = 6144 + j.val) :
    val_main_v14 (F := Ideal) x0 x1 x3 x4 x5 x6 x7 x8 x9 x10 x11 x12 x13 x14 x15 x16 x17 x18 (ix2 r n) = gateLin x0 x1 x15 x17 x16 x18 (ix2 r j) :=
  lin_at x0 x1 x3 x5 x7 x9 x11 x13 x15 x17 x4 x6 x8 x10 x12 x14 x16 x18 x15 x17 x16 x18 r j n
    (fun k => stackW_piece3 x3 x7 x11 x15 j k n hn) (fun k => stackW_piece3 x5 x9 x13 x17 j k n hn)
    (stackB_piece3 x4 x8 x12 x16 j n hn) (stackB_piece3 x6 x10 x14 x18 j n hn)

/-! ## The gates and the cell -/

/-- One over one plus the exponential of the negation, in the host's operations with the word of the float one,
    is the logistic function. -/
theorem sigmoid_spelled (z : Ideal .f32) :
    FloatOps.hostDivf (F := Ideal) (FloatOps.ofBits .f32 0x3F800000#32)
      (FloatOps.addf (FloatOps.ofBits .f32 0x3F800000#32) (FloatOps.hostUnary .exp (FloatOps.hostNegf z))) = Ideal.logistic z := by
  show Ideal.div (Ideal.ofBits .f32 0x3F800000#32) (Ideal.ofBits .f32 0x3F800000#32 + Ideal.exp (-z)) = Ideal.logistic z
  rw [ofBits_one_f32]
  rfl

theorem cut_f (r : Fin 8192) (j : Fin 2048) : idx_main_v15 (ix2 r j : S8192x2048.Idx) = (ix2 r ⟨j.val, by have := j.isLt; omega⟩ : S8192x8192.Idx) :=
  funext fun a => Fin.ext (by match a with | ⟨0, _⟩ => rfl | ⟨1, _⟩ => rfl)
theorem cut_i (r : Fin 8192) (j : Fin 2048) : idx_main_v16 (ix2 r j : S8192x2048.Idx) = (ix2 r ⟨2048 + j.val, by have := j.isLt; omega⟩ : S8192x8192.Idx) :=
  funext fun a => Fin.ext (by match a with | ⟨0, _⟩ => rfl | ⟨1, _⟩ => rfl)
theorem cut_o (r : Fin 8192) (j : Fin 2048) : idx_main_v17 (ix2 r j : S8192x2048.Idx) = (ix2 r ⟨4096 + j.val, by have := j.isLt; omega⟩ : S8192x8192.Idx) :=
  funext fun a => Fin.ext (by match a with | ⟨0, _⟩ => rfl | ⟨1, _⟩ => rfl)
theorem cut_c (r : Fin 8192) (j : Fin 2048) : idx_main_v18 (ix2 r j : S8192x2048.Idx) = (ix2 r ⟨6144 + j.val, by have := j.isLt; omega⟩ : S8192x8192.Idx) :=
  funext fun a => Fin.ext (by match a with | ⟨0, _⟩ => rfl | ⟨1, _⟩ => rfl)

/-- The reference's forget gate at an entry. -/
theorem ref_f (r : Fin 8192) (j : Fin 2048) :
    val_main_v24 (F := Ideal) x0 x1 x3 x4 x5 x6 x7 x8 x9 x10 x11 x12 x13 x14 x15 x16 x17 x18 (ix2 r j) = Ideal.logistic (gateLin x0 x1 x3 x5 x4 x6 (ix2 r j)) := by
  rw [val_main_v24_apply, val_main_v23_apply, val_main_cst_0_apply, val_main_v22_apply, val_main_v21_apply, val_main_cst_apply,
    val_main_v20_apply, val_main_v19_apply, val_main_v15_apply, cut_f, lin_f x0 x1 x3 x5 x7 x9 x11 x13 x15 x17 x4 x6 x8 x10 x12 x14 x16 x18 r j _ (by show j.val = 0 + j.val; omega)]
  exact sigmoid_spelled _

/-- The reference's input gate at an entry. -/
theorem ref_i (r : Fin 8192) (j : Fin 2048) :
    val_main_v30 (F := Ideal) x0 x1 x3 x4 x5 x6 x7 x8 x9 x10 x11 x12 x13 x14 x15 x16 x17 x18 (ix2 r j) = Ideal.logistic (gateLin x0 x1 x7 x9 x8 x10 (ix2 r j)) := by
  rw [val_main_v30_apply, val_main_v29_apply, val_main_cst_2_apply, val_main_v28_apply, val_main_v27_apply, val_main_cst_1_apply,
    val_main_v26_apply, val_main_v25_apply, val_main_v16_apply, cut_i, lin_i x0 x1 x3 x5 x7 x9 x11 x13 x15 x17 x4 x6 x8 x10 x12 x14 x16 x18 r j _ rfl]
  exact sigmoid_spelled _

/-- The reference's output gate at an entry. -/
theorem ref_o (r : Fin 8192) (j : Fin 2048) :
    val_main_v36 (F := Ideal) x0 x1 x3 x4 x5 x6 x7 x8 x9 x10 x11 x12 x13 x14 x15 x16 x17 x18 (ix2 r j) = Ideal.logistic (gateLin x0 x1 x11 x13 x12 x14 (ix2 r j)) := by
  rw [val_main_v36_apply, val_main_v35_apply, val_main_cst_4_apply, val_main_v34_apply, val_main_v33_apply, val_main_cst_3_apply,
    val_main_v32_apply, val_main_v31_apply, val_main_v17_apply, cut_o, lin_o x0 x1 x3 x5 x7 x9 x11 x13 x15 x17 x4 x6 x8 x10 x12 x14 x16 x18 r j _ rfl]
  exact sigmoid_spelled _

/-- The reference's candidate at an entry. -/
theorem ref_c (r : Fin 8192) (j : Fin 2048) :
    val_main_v37 (F := Ideal) x0 x1 x3 x4 x5 x6 x7 x8 x9 x10 x11 x12 x13 x14 x15 x16 x17 x18 (ix2 r j) = Ideal.tanh (gateLin x0 x1 x15 x17 x16 x18 (ix2 r j)) := by
  rw [val_main_v37_apply, val_main_v18_apply, cut_c, lin_c x0 x1 x3 x5 x7 x9 x11 x13 x15 x17 x4 x6 x8 x10 x12 x14 x16 x18 r j _ rfl]
  rfl

/-- The reference's first result is the specification's output gate. -/
theorem out_eq : val_main_v36 (F := Ideal) x0 x1 x3 x4 x5 x6 x7 x8 x9 x10 x11 x12 x13 x14 x15 x16 x17 x18 = outGate (gateLin x0 x1 x11 x13 x12 x14) := by
  funext i
  obtain ⟨r, j, rfl⟩ : ∃ (r : Fin 8192) (j : Fin 2048), i = ix2 r j := ⟨i 0, i 1, eq_ix2 i⟩
  exact ref_o x0 x1 x3 x5 x7 x9 x11 x13 x15 x17 x4 x6 x8 x10 x12 x14 x16 x18 r j

/-- The reference's third result is the specification's new cell state. -/
theorem cell_eq : val_main_v40 (F := Ideal) x0 x1 x2 x3 x4 x5 x6 x7 x8 x9 x10 x11 x12 x13 x14 x15 x16 x17 x18
    = cellNew (gateLin x0 x1 x3 x5 x4 x6) (gateLin x0 x1 x7 x9 x8 x10) (gateLin x0 x1 x15 x17 x16 x18) x2 := by
  funext i
  obtain ⟨r, j, rfl⟩ : ∃ (r : Fin 8192) (j : Fin 2048), i = ix2 r j := ⟨i 0, i 1, eq_ix2 i⟩
  rw [val_main_v40_apply, val_main_v38_apply, val_main_v39_apply, ref_f, ref_i, ref_c]
  rfl

/-- The reference's second result is the specification's new hidden state. -/
theorem hid_eq : val_main_v41 (F := Ideal) x0 x1 x2 x3 x4 x5 x6 x7 x8 x9 x10 x11 x12 x13 x14 x15 x16 x17 x18
    = hidNew (gateLin x0 x1 x3 x5 x4 x6) (gateLin x0 x1 x7 x9 x8 x10) (gateLin x0 x1 x11 x13 x12 x14) (gateLin x0 x1 x15 x17 x16 x18) x2 := by
  funext i
  obtain ⟨r, j, rfl⟩ : ∃ (r : Fin 8192) (j : Fin 2048), i = ix2 r j := ⟨i 0, i 1, eq_ix2 i⟩
  rw [val_main_v41_apply, ref_o, cell_eq]
  rfl

end Cert.ReferenceIdeal.Cell

end
-- ==== Proof.lean ====
/-
  The certificate of the fused long short-term memory cell against its plain reference, on the extended reals.

  Both programs compute, for each of the four gates, the affine form "x times the transpose of Wx, plus h times the
  transpose of Wh, plus the two biases", then the logistic function of the forget, input and output gates and the
  hyperbolic tangent of the candidate, and from them  c_new = f * c + i * tanh(candidate)  and  h_new = o * c_new.
  The kernel tiles the 8192 x 2048 results into 512 x 256 tiles and, per tile, multiplies blocks of the activations by
  blocks of each gate's own weight matrix, the two biases of a gate having been added beforehand; the reference
  stacks the four gates' matrices and biases, multiplies once, and cuts the columns apart, adding projection, bias,
  projection, bias in that order. Changing the float format of the matrix unit's operands is the identity on the
  extended reals, the stacked matrix read at a gate's columns is that gate's own matrix, the two orders of the four
  summands agree because addition is commutative and associative, and the reference's logistic function (one over
  one plus the exponential of the negation) is the kernel's. Nothing here needs the inputs to be finite.

  The frames of the two kernel programs are the generated frame certificates; the reference's frame is its run with
  the results dropped. The idealization's ledger is empty.
-/
import proofs.«173562_j8804682957036_1_alg».proof.Defs
import proofs.«173562_j8804682957036_1_alg».proof.Proof.Gen.Kernel
import proofs.«173562_j8804682957036_1_alg».proof.Proof.Gen.Kernel.Skeleton
import proofs.«173562_j8804682957036_1_alg».proof.Proof.Gen.Kernel.Launch
import proofs.«173562_j8804682957036_1_alg».proof.Proof.Gen.Kernel.Points
import proofs.«173562_j8804682957036_1_alg».proof.Proof.Gen.Kernel.Frame
import proofs.«173562_j8804682957036_1_alg».proof.Proof.Gen.KernelIdeal
import proofs.«173562_j8804682957036_1_alg».proof.Proof.Gen.KernelIdeal.Skeleton
import proofs.«173562_j8804682957036_1_alg».proof.Proof.Gen.KernelIdeal.Launch
import proofs.«173562_j8804682957036_1_alg».proof.Proof.Gen.KernelIdeal.Points
import proofs.«173562_j8804682957036_1_alg».proof.Proof.Gen.KernelIdeal.Frame
import proofs.«173562_j8804682957036_1_alg».proof.Proof.Gen.ReferenceIdeal
import proofs.«173562_j8804682957036_1_alg».proof.Proof.Gen.Pre_finite_inputs
import proofs.«173562_j8804682957036_1_alg».proof.Proof.Gen.KernelIdeal.Value
import proofs.«173562_j8804682957036_1_alg».proof.Proof.Gen.ReferenceIdeal.Run
import proofs.«173562_j8804682957036_1_alg».proof.Proof.Gen.ReferenceIdeal.Read
import proofs.«173562_j8804682957036_1_alg».proof.Proof.KerArr
import proofs.«173562_j8804682957036_1_alg».proof.Proof.RefIs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

section Agree

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- On agreeing arguments the reference's first result is the kernel's: the output gate. -/
theorem out_agree
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (e13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (e14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.ReferenceIdeal.Read.val_main_v36 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) = Cert.KernelIdeal.Arr.Gout m c := by
  rw [Cert.ReferenceIdeal.Cell.out_eq, e0, e1, e11, e13, e12, e14]
  rfl

/-- On agreeing arguments the reference's second result is the kernel's: the new hidden state. -/
theorem hid_agree
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (e13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (e14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (e15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (e16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (e17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (e18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) :
    Cert.ReferenceIdeal.Read.val_main_v41 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) = Cert.KernelIdeal.Arr.Ghid m c := by
  rw [Cert.ReferenceIdeal.Cell.hid_eq, e0, e1, e2, e3, e4, e5, e6, e7, e8, e9, e10, e11, e12, e13, e14, e15, e16, e17, e18]
  rfl

/-- On agreeing arguments the reference's third result is the kernel's: the new cell state. -/
theorem cell_agree
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (e16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (e17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (e18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) :
    Cert.ReferenceIdeal.Read.val_main_v40 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) = Cert.KernelIdeal.Arr.Gcell m c := by
  rw [Cert.ReferenceIdeal.Cell.cell_eq, e0, e1, e2, e3, e4, e5, e6, e7, e8, e9, e10, e15, e16, e17, e18]
  rfl

end Agree

/-- Run from memories agreeing on the nineteen arguments, the two idealized programs end with the same three
    arrays: the cell of the arguments. -/
theorem algebraic : Cert.algebraic_KernelIdeal_ReferenceIdeal := by
  intro m ρ m' ρ' _ hagree
  refine ⟨fun c => Cert.KernelIdeal.Arr.Gout m c, fun c => Cert.KernelIdeal.Arr.Ghid m c, fun c => Cert.KernelIdeal.Arr.Gcell m c, ?_, ?_⟩
  · exact (θ_run Cert.KernelIdeal.defs _ _).mono
      (fun r h c => ⟨(h c).1.trans (Cert.KernelIdeal.Arr.final15 m c), (h c).2.1.trans (Cert.KernelIdeal.Arr.final16 m c),
        (h c).2.2.1.trans (Cert.KernelIdeal.Arr.final17 m c), (h c).2.2.2⟩)
      (Cert.KernelIdeal.Value.run_blocks (F := Ideal) m ρ)
  refine (θ_run Cert.ReferenceIdeal.defs _ _).mono (fun _ h c => ?_) (Cert.ReferenceIdeal.Value.run (F := Ideal) m' ρ')
  obtain ⟨e0, e1, e2, e3, e4, e5, e6, e7, e8, e9, e10, e11, e12, e13, e14, e15, e16, e17, e18⟩ := hagree c
  refine ⟨(h c).1.trans ?_, (h c).2.1.trans ?_, (h c).2.2.1.trans ?_, (h c).2.2.2⟩
  · exact out_agree m m' c e0 e1 e11 e12 e13 e14
  · rw [Cert.ReferenceIdeal.Read.val_main_v41_eq]
    exact hid_agree m m' c e0 e1 e2 e3 e4 e5 e6 e7 e8 e9 e10 e11 e12 e13 e14 e15 e16 e17 e18
  · rw [Cert.ReferenceIdeal.Read.val_main_v40_eq]
    exact cell_agree m m' c e0 e1 e2 e3 e4 e5 e6 e7 e8 e9 e10 e15 e16 e17 e18

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
